-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_gamma" .f32 0x41200000#32 ((134217728 / 13421773 : ℝ) : EReal)
  ∧ IdealRules.named_const.Statement Cert.KernelIdeal.κ "inv_gamma" .f32 0x41200000#32 ((134217728 / 13421773 : ℝ) : EReal)
  ∧ IdealRules.named_const.Statement Cert.KernelIdeal.κ "inv_gamma" .f32 0x41200000#32 ((134217728 / 13421773 : ℝ) : EReal)
  ∧ IdealRules.named_const.Statement Cert.KernelIdeal.κ "inv_gamma" .f32 0x41200000#32 ((134217728 / 13421773 : ℝ) : EReal)
  ∧ IdealRules.named_const.Statement Cert.KernelIdeal.κ "inv_gamma" .f32 0x41200000#32 ((134217728 / 13421773 : ℝ) : EReal)
  ∧ IdealRules.named_const.Statement Cert.KernelIdeal.κ "inv_gamma" .f32 0x41200000#32 ((134217728 / 13421773 : ℝ) : EReal)
  ∧ IdealRules.named_const.Statement Cert.KernelIdeal.κ "inv_gamma" .f32 0x41200000#32 ((134217728 / 13421773 : ℝ) : EReal)
  ∧ IdealRules.named_const.Statement Cert.KernelIdeal.κ "inv_gamma" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S32768x512 : Shape := ⟨2, ![32768, 512]⟩
abbrev S2048 : Shape := ⟨1, ![2048]⟩
abbrev S_ : Shape := ⟨0, ![]⟩
abbrev S8192x4x512 : Shape := ⟨3, ![8192, 4, 512]⟩
abbrev S8192x4 : Shape := ⟨2, ![8192, 4]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  shapeCasts_S32768x512_S8192x4x512 : S32768x512.ShapeCasts S8192x4x512
  reducesTo_S8192x4x512_S8192x4_d2 : S8192x4x512.ReducesTo [2] S8192x4
  bcast_S_S8192x4 : S_.BroadcastsInDim S8192x4 (![] : Fin 0 → Fin S8192x4.rank)
  reducesTo_S8192x4_S_d0_1 : S8192x4.ReducesTo [0, 1] S_

variable [Facts]

def fn {F : FTy → Type} [FloatOps F] (main_arg0 : FVec F S2048x512 .f32) (main_arg1 : FVec F S32768x512 .f32) (main_arg2 : IVec S2048 32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S8192x4x512 .f32 := shapeCast S8192x4x512 main_arg1 shapeCasts_S32768x512_S8192x4x512
  let main_cst_2 : FVec F S_ .f32 := constant S_ .f32 0x00000000#32
  let main_v10 : FVec F S8192x4 .f32 := (fun x v => Host.reduceAdd x v reducesTo_S8192x4x512_S8192x4_d2 h_S_) main_v9 main_cst_2
  let main_cst_3 : FVec F S_ .f32 := constant S_ .f32 0x00000000#32
  let main_v11 : FVec F S8192x4 .f32 := broadcastInDim S8192x4 ![] bcast_S_S8192x4 main_cst_3
  let main_v12 : IVec S8192x4 1 := cmpf .une main_v10 main_v11
  let main_c_4 : IVec S_ 1 := constantI S_ 1 1#1
  let main_v13 : IVec S_ 1 := (fun x v => Host.reduce IntOp.andi x v reducesTo_S8192x4_S_d0_1 h_S_) main_v12 main_c_4
  let main_v14 : IVec S_ 1 := andi main_v8 main_v13
  main_v14
-- ==== Kernel.lean ====
abbrev S2048x512 : Shape := ⟨2, ![2048, 512]⟩
abbrev S32768x512 : Shape := ⟨2, ![32768, 512]⟩
abbrev S2048 : Shape := ⟨1, ![2048]⟩
abbrev S8192x4x512 : Shape := ⟨3, ![8192, 4, 512]⟩
abbrev S8192x2048 : Shape := ⟨2, ![8192, 2048]⟩
abbrev S_ : Shape := ⟨0, ![]⟩
abbrev S8192x4 : Shape := ⟨2, ![8192, 4]⟩
abbrev S4x8192 : Shape := ⟨2, ![4, 8192]⟩
abbrev S2048x8192 : Shape := ⟨2, ![2048, 8192]⟩
abbrev S16x2048x1 : Shape := ⟨3, ![16, 2048, 1]⟩
abbrev S512x512 : Shape := ⟨2, ![512, 512]⟩
abbrev S512x2048 : Shape := ⟨2, ![512, 2048]⟩
abbrev S4x512 : Shape := ⟨2, ![4, 512]⟩
abbrev S1x512x1 : Shape := ⟨3, ![1, 512, 1]⟩
abbrev S1x512 : Shape := ⟨2, ![1, 512]⟩
abbrev S512 : Shape := ⟨1, ![512]⟩
abbrev S512x1 : Shape := ⟨2, ![512, 1]⟩
abbrev S8192x4x1 : Shape := ⟨3, ![8192, 4, 1]⟩
abbrev S8192x3x512 : Shape := ⟨3, ![8192, 3, 512]⟩
abbrev S8192x3 : Shape := ⟨2, ![8192, 3]⟩
abbrev S2048x1 : Shape := ⟨2, ![2048, 1]⟩
abbrev S2048x2048 : Shape := ⟨2, ![2048, 2048]⟩
abbrev S16x2048 : Shape := ⟨2, ![16, 2048]⟩

abbrev nBuf : Space → Nat
  | .hbm => 83
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S32768x512, .f32⟩
  | .hbm, ⟨2, _⟩ => ⟨S2048, .i32⟩
  | .hbm, ⟨3, _⟩ => ⟨S8192x4x512, .f32⟩
  | .hbm, ⟨4, _⟩ => ⟨S8192x2048, .f32⟩
  | .hbm, ⟨5, _⟩ => ⟨S_, .f32⟩
  | .hbm, ⟨6, _⟩ => ⟨S8192x4, .f32⟩
  | .hbm, ⟨7, _⟩ => ⟨S_, .f32⟩
  | .hbm, ⟨8, _⟩ => ⟨S8192x4, .f32⟩
  | .hbm, ⟨9, _⟩ => ⟨S8192x4, .f32⟩
  | .hbm, ⟨10, _⟩ => ⟨S4x8192, .f32⟩
  | .hbm, ⟨11, _⟩ => ⟨S2048x512, .bf16⟩
  | .hbm, ⟨12, _⟩ => ⟨S2048x8192, .f32⟩
  | .hbm, ⟨13, _⟩ => ⟨S2048x8192, .f32⟩
  | .hbm, ⟨14, _⟩ => ⟨S16x2048x1, .f32⟩
  | .hbm, ⟨15, _⟩ => ⟨S8192x4x1, .f32⟩
  | .hbm, ⟨16, _⟩ => ⟨S8192x4x512, .f32⟩
  | .hbm, ⟨17, _⟩ => ⟨S8192x4x512, .f32⟩
  | .hbm, ⟨18, _⟩ => ⟨S8192x3x512, .f32⟩
  | .hbm, ⟨19, _⟩ => ⟨S8192x3x512, .f32⟩
  | .hbm, ⟨20, _⟩ => ⟨S8192x3x512, .f32⟩
  | .hbm, ⟨21, _⟩ => ⟨S_, .f32⟩
  | .hbm, ⟨22, _⟩ => ⟨S8192x3, .f32⟩
  | .hbm, ⟨23, _⟩ => ⟨S_, .f32⟩
  | .hbm, ⟨24, _⟩ => ⟨S8192x3, .f32⟩
  | .hbm, ⟨25, _⟩ => ⟨S8192x3, .f32⟩
  | .hbm, ⟨26, _⟩ => ⟨S_, .f32⟩
  | .hbm, ⟨27, _⟩ => ⟨S8192x3, .f32⟩
  | .hbm, ⟨28, _⟩ => ⟨S8192x3, .f32⟩
  | .hbm, ⟨29, _⟩ => ⟨S_, .f32⟩
  | .hbm, ⟨30, _⟩ => ⟨S_, .f32⟩
  | .hbm, ⟨31, _⟩ => ⟨S8192x3, .f32⟩
  | .hbm, ⟨32, _⟩ => ⟨S8192x3, .f32⟩
  | .hbm, ⟨33, _⟩ => ⟨S8192x3, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S2048x1, .i32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S16x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S2048x1, .i32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x2048, .f32⟩
  | .local _ .vmem, ⟨3, _⟩ => ⟨S512x2048, .f32⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x1, .f32⟩
  | .local _ .vmem, ⟨11, _⟩ => ⟨S1x512x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_v39 : Ref sig .tc := ⟨.hbm, 61, rfl⟩
abbrev main_v40 : Ref sig .tc := ⟨.hbm, 62, rfl⟩
abbrev main_c_13 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_cst_16 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S32768x512_S8192x4x512 : S32768x512.ShapeCasts S8192x4x512
  shapeCasts_S32768x512_S8192x2048 : S32768x512.ShapeCasts S8192x2048
  reducesTo_S8192x4x512_S8192x4_d2 : S8192x4x512.ReducesTo [2] S8192x4
  h_S_ : 0 < S_.numel
  bcast_S_S8192x4 : S_.BroadcastsInDim S8192x4 (![] : Fin 0 → Fin S8192x4.rank)
  transposes_S8192x4_S4x8192_1_0 : S8192x4.Transposes [1, 0] S4x8192
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x512_0_0 : ∀ a, (![0, 0] : Fin 2 → Nat) a + S512x512.size a ≤ S512x2048.size a
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  inb_S512x2048_S512x512_0_512 : ∀ a, (![0, 512] : Fin 2 → Nat) a + S512x512.size a ≤ S512x2048.size a
  inb_S4x512_S1x512_1_0 : ∀ a, (![1, 0] : Fin 2 → Nat) a + S1x512.size a ≤ S4x512.size a
  inb_S512x2048_S512x512_0_1024 : ∀ a, (![0, 1024] : Fin 2 → Nat) a + S512x512.size a ≤ S512x2048.size a
  inb_S4x512_S1x512_2_0 : ∀ a, (![2, 0] : Fin 2 → Nat) a + S1x512.size a ≤ S4x512.size a
  inb_S512x2048_S512x512_0_1536 : ∀ a, (![0, 1536] : Fin 2 → Nat) a + S512x512.size a ≤ S512x2048.size a
  inb_S4x512_S1x512_3_0 : ∀ a, (![3, 0] : Fin 2 → Nat) a + S1x512.size a ≤ S4x512.size a
  reduces_S512x512_S512 : S512x512.Reduces [1] S512
  shapeCasts_S512_S512x1 : S512.ShapeCasts S512x1
  shapeCasts_S512x1_S1x512x1 : S512x1.ShapeCasts S1x512x1
  inb_S1x512x1_S1x512x1_0_0_0 : ∀ a, (![0, 0, 0] : Fin 3 → Nat) a + S1x512x1.size a ≤ S1x512x1.size a
  h_S1x512x1 : 0 < S1x512x1.numel
  bcast_S8192x4_S8192x4x1_0_1 : S8192x4.BroadcastsInDim S8192x4x1 (![0, 1] : Fin 2 → Fin S8192x4x1.rank)
  bcast_S8192x4x1_S8192x4x512_0_1_2 : S8192x4x1.BroadcastsInDim S8192x4x512 (![0, 1, 2] : Fin 3 → Fin S8192x4x512.rank)
  slices_S8192x4x512_S8192x3x512_0_0_0 : S8192x4x512.Slices ![0, 0, 0] S8192x3x512
  slices_S8192x4x512_S8192x3x512_0_1_0 : S8192x4x512.Slices ![0, 1, 0] S8192x3x512
  reducesTo_S8192x3x512_S8192x3_d2 : S8192x3x512.ReducesTo [2] S8192x3
  bcast_S_S8192x3 : S_.BroadcastsInDim S8192x3 (![] : Fin 0 → Fin S8192x3.rank)
  reducesTo_S8192x3_S_d0_1 : S8192x3.ReducesTo [0, 1] S_
  bcast_S_S2048 : S_.BroadcastsInDim S2048 (![] : Fin 0 → Fin S2048.rank)
  bcast_S2048_S2048x1_0 : S2048.BroadcastsInDim S2048x1 (![0] : Fin 1 → Fin S2048x1.rank)
  bcast_S_S2048x2048 : S_.BroadcastsInDim S2048x2048 (![] : Fin 0 → Fin S2048x2048.rank)
  shapeCasts_S16x2048x1_S16x2048 : S16x2048x1.ShapeCasts S16x2048
  reducesTo_S16x2048_S2048_d0 : S16x2048.ReducesTo [0] S2048
  bcast_S2048x1_S2048x2048_0_1 : S2048x1.BroadcastsInDim S2048x2048 (![0, 1] : Fin 2 → Fin S2048x2048.rank)
  reducesTo_S2048x2048_S_d0_1 : S2048x2048.ReducesTo [0, 1] S_
  dot_S512x512_S512x512_S512x512_1_1_0_0_n_n_wf : DotDims.WF S512x512 S512x512 S512x512 [1] [1] [0] [0] [] []
  gather_S2048x8192_S2048x1_S2048x2048_0_1_n_n_1_1_20481_wf : GatherDims.WF S2048x8192 S2048x1 S2048x2048 [0] [1] [] [1] [] 1 ![2048, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .bf16 = 32 ∨ (Rect.block (s := S2048x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x8192.size a
  hwx0_3 : ∀ i : grid0.Coords, EltTy.bits .f32 = 32 ∨ (Rect.block (s := S2048x8192) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x8192.size a
  hwx0_4 : ∀ i : grid0.Coords, EltTy.bits .f32 = 32 ∨ (Rect.block (s := S2048x8192) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S16x2048x1.size a
  hwx0_5 : ∀ i : grid0.Coords, EltTy.bits .f32 = 32 ∨ (Rect.block (s := S16x2048x1) S1x512x1.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def gather_S2048x8192_S2048x1_S2048x2048_0_1_n_n_1_1_20481 : GatherDims S2048x8192 S2048x1 S2048x2048 where
  offsetDims := [0]
  collapsedSliceDims := [1]
  operandBatchingDims := []
  startIndicesBatchingDims := []
  startIndexMap := [1]
  indexVectorDim := 1
  sliceSizes := ![2048, 1]
  wf := gather_S2048x8192_S2048x1_S2048x2048_0_1_n_n_1_1_20481_wf

abbrev win0_0 : Pipeline.Window sig grid0 :=
  Pipeline.Window.ofSpec (Memref.whole main_v6) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x512 : Shape := ⟨2, ![2048, 512]⟩
abbrev S32768x512 : Shape := ⟨2, ![32768, 512]⟩
abbrev S2048 : Shape := ⟨1, ![2048]⟩
abbrev S8192x4x512 : Shape := ⟨3, ![8192, 4, 512]⟩
abbrev S_ : Shape := ⟨0, ![]⟩
abbrev S8192x4 : Shape := ⟨2, ![8192, 4]⟩
abbrev S2048x8192x4 : Shape := ⟨3, ![2048, 8192, 4]⟩
abbrev S2048x8192 : Shape := ⟨2, ![2048, 8192]⟩
abbrev S2048x8192x1 : Shape := ⟨3, ![2048, 8192, 1]⟩
abbrev S1x8192x4 : Shape := ⟨3, ![1, 8192, 4]⟩
abbrev S2048x1 : Shape := ⟨2, ![2048, 1]⟩
abbrev S2048x2048 : Shape := ⟨2, ![2048, 2048]⟩
abbrev S8192x4x1 : Shape := ⟨3, ![8192, 4, 1]⟩
abbrev S8192x3x512 : Shape := ⟨3, ![8192, 3, 512]⟩
abbrev S8192x3 : Shape := ⟨2, ![8192, 3]⟩

abbrev nBuf : Space → Nat
  | .hbm => 117
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S32768x512, .f32⟩
  | .hbm, ⟨2, _⟩ => ⟨S2048, .i32⟩
  | .hbm, ⟨3, _⟩ => ⟨S8192x4x512, .f32⟩
  | .hbm, ⟨4, _⟩ => ⟨S_, .f32⟩
  | .hbm, ⟨5, _⟩ => ⟨S8192x4, .f32⟩
  | .hbm, ⟨6, _⟩ => ⟨S2048x8192x4, .f32⟩
  | .hbm, ⟨7, _⟩ => ⟨S_, .f32⟩
  | .hbm, ⟨8, _⟩ => ⟨S2048x8192x4, .f32⟩
  | .hbm, ⟨9, _⟩ => ⟨S2048x8192x4, .f32⟩
  | .hbm, ⟨10, _⟩ => ⟨S_, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x8192x1, .f32⟩
  | .hbm, ⟨16, _⟩ => ⟨S2048x8192x4, .f32⟩
  | .hbm, ⟨17, _⟩ => ⟨S2048x8192x4, .f32⟩
  | .hbm, ⟨18, _⟩ => ⟨S2048x8192x4, .f32⟩
  | .hbm, ⟨19, _⟩ => ⟨S_, .f32⟩
  | .hbm, ⟨20, _⟩ => ⟨S2048x8192, .f32⟩
  | .hbm, ⟨21, _⟩ => ⟨S2048x8192x1, .f32⟩
  | .hbm, ⟨22, _⟩ => ⟨S2048x8192x4, .f32⟩
  | .hbm, ⟨23, _⟩ => ⟨S2048x8192x4, .f32⟩
  | .hbm, ⟨24, _⟩ => ⟨S2048x8192x4, .f32⟩
  | .hbm, ⟨25, _⟩ => ⟨S_, .f32⟩
  | .hbm, ⟨26, _⟩ => ⟨S2048x8192, .f32⟩
  | .hbm, ⟨27, _⟩ => ⟨S1x8192x4, .f32⟩
  | .hbm, ⟨28, _⟩ => ⟨S2048x8192x4, .f32⟩
  | .hbm, ⟨29, _⟩ => ⟨S2048x8192x4, .f32⟩
  | .hbm, ⟨30, _⟩ => ⟨S_, .f32⟩
  | .hbm, ⟨31, _⟩ => ⟨S2048x8192x4, .f32⟩
  | .hbm, ⟨32, _⟩ => ⟨S2048x8192x4, .f32⟩
  | .hbm, ⟨33, _⟩ => ⟨S_, .f32⟩
  | .hbm, ⟨34, _⟩ => ⟨S2048x8192, .f32⟩
  | .hbm, ⟨35, _⟩ => ⟨S_, .f32⟩
  | .hbm, ⟨36, _⟩ => ⟨S2048x8192, .f32⟩
  | .hbm, ⟨37, _⟩ => ⟨S2048x8192, .f32⟩
  | .hbm, ⟨38, _⟩ => ⟨S2048x8192x1, .f32⟩
  | .hbm, ⟨39, _⟩ => ⟨S2048x8192x4, .f32⟩
  | .hbm, ⟨40, _⟩ => ⟨S2048x8192x4, .f32⟩
  | .hbm, ⟨41, _⟩ => ⟨S2048x8192x4, .f32⟩
  | .hbm, ⟨42, _⟩ => ⟨S_, .f32⟩
  | .hbm, ⟨43, _⟩ => ⟨S2048x8192, .f32⟩
  | .hbm, ⟨44, _⟩ => ⟨S2048x8192x1, .f32⟩
  | .hbm, ⟨45, _⟩ => ⟨S2048x8192x4, .f32⟩
  | .hbm, ⟨46, _⟩ => ⟨S2048x8192x4, .f32⟩
  | .hbm, ⟨47, _⟩ => ⟨S2048x8192x4, .f32⟩
  | .hbm, ⟨48, _⟩ => ⟨S_, .f32⟩
  | .hbm, ⟨49, _⟩ => ⟨S2048x8192, .f32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S2048x2048, .f32⟩
  | .hbm, ⟨59, _⟩ => ⟨S_, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S8192x4x1, .f32⟩
  | .hbm, ⟨92, _⟩ => ⟨S8192x4x512, .f32⟩
  | .hbm, ⟨93, _⟩ => ⟨S8192x4x512, .f32⟩
  | .hbm, ⟨94, _⟩ => ⟨S8192x3x512, .f32⟩
  | .hbm, ⟨95, _⟩ => ⟨S8192x3x512, .f32⟩
  | .hbm, ⟨96, _⟩ => ⟨S8192x3x512, .f32⟩
  | .hbm, ⟨97, _⟩ => ⟨S_, .f32⟩
  | .hbm, ⟨98, _⟩ => ⟨S8192x3, .f32⟩
  | .hbm, ⟨99, _⟩ => ⟨S_, .f32⟩
  | .hbm, ⟨100, _⟩ => ⟨S8192x3, .f32⟩
  | .hbm, ⟨101, _⟩ => ⟨S8192x3, .f32⟩
  | .hbm, ⟨102, _⟩ => ⟨S_, .f32⟩
  | .hbm, ⟨103, _⟩ => ⟨S8192x3, .f32⟩
  | .hbm, ⟨104, _⟩ => ⟨S8192x3, .f32⟩
  | .hbm, ⟨105, _⟩ => ⟨S_, .f32⟩
  | .hbm, ⟨106, _⟩ => ⟨S_, .f32⟩
  | .hbm, ⟨107, _⟩ => ⟨S8192x3, .f32⟩
  | .hbm, ⟨108, _⟩ => ⟨S8192x3, .f32⟩
  | .hbm, ⟨109, _⟩ => ⟨S8192x3, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_c : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_c_14 : Ref sig .tc := ⟨.hbm, 69, rfl⟩
abbrev main_v50 : Ref sig .tc := ⟨.hbm, 70, rfl⟩
abbrev main_v51 : Ref sig .tc := ⟨.hbm, 71, rfl⟩
abbrev main_c_15 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_cst_18 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_cst_20 : Ref sig .tc := ⟨.hbm, 99, rfl⟩
abbrev main_v74 : Ref sig .tc := ⟨.hbm, 100, rfl⟩
abbrev main_v75 : Ref sig .tc := ⟨.hbm, 101, rfl⟩
abbrev main_cst_21 : Ref sig .tc := ⟨.hbm, 102, rfl⟩
abbrev main_v76 : Ref sig .tc := ⟨.hbm, 103, rfl⟩
abbrev main_v77 : Ref sig .tc := ⟨.hbm, 104, rfl⟩
abbrev main_cst_22 : Ref sig .tc := ⟨.hbm, 105, rfl⟩
abbrev main_call0_v0 : Ref sig .tc := ⟨.hbm, 106, rfl⟩
abbrev main_call0_v1 : Ref sig .tc := ⟨.hbm, 107, rfl⟩
abbrev main_v78 : Ref sig .tc := ⟨.hbm, 108, rfl⟩
abbrev main_v79 : Ref sig .tc := ⟨.hbm, 109, rfl⟩
abbrev main_cst_23 : Ref sig .tc := ⟨.hbm, 110, rfl⟩
abbrev main_v80 : Ref sig .tc := ⟨.hbm, 111, rfl⟩
abbrev main_cst_24 : Ref sig .tc := ⟨.hbm, 112, rfl⟩
abbrev main_v81 : Ref sig .tc := ⟨.hbm, 113, rfl⟩
abbrev main_cst_25 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  shapeCasts_S32768x512_S8192x4x512 : S32768x512.ShapeCasts S8192x4x512
  reducesTo_S8192x4x512_S8192x4_d2 : S8192x4x512.ReducesTo [2] S8192x4
  h_S_ : 0 < S_.numel
  bcast_S_S2048x8192x4 : S_.BroadcastsInDim S2048x8192x4 (![] : Fin 0 → Fin S2048x8192x4.rank)
  reducesTo_S2048x8192x4_S2048x8192_d2 : S2048x8192x4.ReducesTo [2] S2048x8192
  bcast_S_S2048x8192 : S_.BroadcastsInDim S2048x8192 (![] : Fin 0 → Fin S2048x8192.rank)
  bcast_S2048x8192_S2048x8192x1_0_1 : S2048x8192.BroadcastsInDim S2048x8192x1 (![0, 1] : Fin 2 → Fin S2048x8192x1.rank)
  bcast_S2048x8192x1_S2048x8192x4_0_1_2 : S2048x8192x1.BroadcastsInDim S2048x8192x4 (![0, 1, 2] : Fin 3 → Fin S2048x8192x4.rank)
  bcast_S8192x4_S1x8192x4_1_2 : S8192x4.BroadcastsInDim S1x8192x4 (![1, 2] : Fin 2 → Fin S1x8192x4.rank)
  bcast_S1x8192x4_S2048x8192x4_0_1_2 : S1x8192x4.BroadcastsInDim S2048x8192x4 (![0, 1, 2] : Fin 3 → Fin S2048x8192x4.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x2048 : S_.BroadcastsInDim S2048x2048 (![] : Fin 0 → Fin S2048x2048.rank)
  reducesTo_S2048x8192_S2048_d1 : S2048x8192.ReducesTo [1] S2048
  bcast_S2048x1_S2048x2048_0_1 : S2048x1.BroadcastsInDim S2048x2048 (![0, 1] : Fin 2 → Fin S2048x2048.rank)
  reducesTo_S2048x2048_S_d0_1 : S2048x2048.ReducesTo [0, 1] S_
  bcast_S8192x4_S8192x4x1_0_1 : S8192x4.BroadcastsInDim S8192x4x1 (![0, 1] : Fin 2 → Fin S8192x4x1.rank)
  bcast_S8192x4x1_S8192x4x512_0_1_2 : S8192x4x1.BroadcastsInDim S8192x4x512 (![0, 1, 2] : Fin 3 → Fin S8192x4x512.rank)
  slices_S8192x4x512_S8192x3x512_0_0_0 : S8192x4x512.Slices ![0, 0, 0] S8192x3x512
  slices_S8192x4x512_S8192x3x512_0_1_0 : S8192x4x512.Slices ![0, 1, 0] S8192x3x512
  reducesTo_S8192x3x512_S8192x3_d2 : S8192x3x512.ReducesTo [2] S8192x3
  bcast_S_S8192x3 : S_.BroadcastsInDim S8192x3 (![] : Fin 0 → Fin S8192x3.rank)
  reducesTo_S8192x3_S_d0_1 : S8192x3.ReducesTo [0, 1] S_
  dot_S2048x512_S8192x4x512_S2048x8192x4_1_2_0_01_n_n_wf : DotDims.WF S2048x512 S8192x4x512 S2048x8192x4 [1] [2] [0] [0, 1] [] []
  gather_S2048x8192_S2048x1_S2048x2048_0_1_n_n_1_1_20481_wf : GatherDims.WF S2048x8192 S2048x1 S2048x2048 [0] [1] [] [1] [] 1 ![2048, 1]

variable [Facts₀]

def dot_S2048x512_S8192x4x512_S2048x8192x4_1_2_0_01_n_n : DotDims S2048x512 S8192x4x512 S2048x8192x4 where
  lhsContracting := [1]
  rhsContracting := [2]
  lhsNonContracting := [0]
  rhsNonContracting := [0, 1]
  lhsBatch := []
  rhsBatch := []
  wf := dot_S2048x512_S8192x4x512_S2048x8192x4_1_2_0_01_n_n_wf
def gather_S2048x8192_S2048x1_S2048x2048_0_1_n_n_1_1_20481 : GatherDims S2048x8192 S2048x1 S2048x2048 where
  offsetDims := [0]
  collapsedSliceDims := [1]
  operandBatchingDims := []
  startIndicesBatchingDims := []
  startIndexMap := [1]
  indexVectorDim := 1
  sliceSizes := ![2048, 1]
  wf := gather_S2048x8192_S2048x1_S2048x2048_0_1_n_n_1_1_20481_wf

class Facts : Prop extends Facts₀ where

variable [Facts]
-- ==== Proof.FrameKernel.lean ====
/-
  The frame of the program: it runs to the end, faults nowhere and leaves its three argument arrays as launched,
  and after the run every array of its one pipeline holds what the per-point contents below assemble to.

  The program is host lines (reshapes of W, the row sums and their reciprocals, the narrowing of x), ONE region on a
  16 × 4 grid of (category tile, sample tile) points, and three further stretches of host lines (the regulariser, the
  clip, the gather-and-combine of the soft-triple loss). The region's body is straight-line: it loads the sample block
  (512 × 512), the four 512 × 512 column panels of the category block (512 × 2048) and the four rows of the reciprocal
  row-sum block (4 × 512), computes, and stores three results through rectangles that cover their buffers whole:
  the raw similarity block, the normalised similarity block, and the per-row sum of the latter.
  So what a point leaves in each output buffer is ONE piece: a pure function of the three input blocks
  (`rawBlock`, `normBlock`, `partBlock`), and the pipeline's arrays after the run are those pieces written
  back block by block (`Dat.arrAt`).
-/
import proofs.«409182_j25632364822733_3_alg».proof.Proof.Gen.Kernel.Launch
import proofs.«409182_j25632364822733_3_alg».proof.Proof.Gen.Kernel.Skeleton
import proofs.«409182_j25632364822733_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- A core's buffer contents when the region is entered: the launch contents after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The three stretches of host lines after the region. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the region, the region, and the later lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only unscoped TensorCore buffers: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No line of a stretch writes array `w` of the pipeline: every line writes its own result buffer, which is none of the six. -/
theorem keeps_of (ops : List (HloOp τ sig (Elt F))) (w : Fin 6)
    (h : ops.Forall fun op => Proc.devRef .tc (Pipeline.arrRef spec0 w) ∉ op.writes) :
    ∀ op ∈ ops, Proc.devRef .tc (Pipeline.arrRef spec0 w) ∉ op.writes := List.forall_iff_forall_mem.mp h

theorem keeps1 (w : Fin 6) : (hostOps1 : List (HloOp τ sig (Elt F))).Forall fun op => Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem keeps1_1 (w : Fin 6) : (hostOps1_1 : List (HloOp τ sig (Elt F))).Forall fun op => Proc.devRef .tc (Pipeline.arrRef spec0 w) ∉ op.writes := by
  fin_cases w <;>
  · simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem keeps1_2 (w : Fin 6) : (hostOps1_2 : List (HloOp τ sig (Elt F))).Forall fun op => Proc.devRef .tc (Pipeline.arrRef spec0 w) ∉ op.writes := by
  fin_cases w <;>
  · simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact keeps_of _ w (keeps1 w) op hop
  · exact keeps_of _ w (keeps1_1 w) op hop
  · exact keeps_of _ w (keeps1_2 w) op hop

/-- No host line before the region writes an argument: the region finds it as launched. -/
theorem V_arg (a : Ref sig .tc) (ha : (hostOps0 : List (HloOp τ sig (Elt F))).Forall fun op => Proc.devRef .tc a ∉ op.writes) (c : Dev nD) :
    V m c a = m ((c : Thread nD τ).loc a) :=
  StableHlo.after_of_forall_not_mem (b := Proc.devRef .tc a) _ _ (List.forall_iff_forall_mem.mp (by
    simpa only [List.flatten_cons, List.flatten_nil, List.append_nil] using ha))

theorem pre_keeps (a : Ref sig .tc) (ha : a = main_arg0 ∨ a = main_arg1 ∨ a = main_arg2) :
    (hostOps0 : List (HloOp τ sig (Elt F))).Forall fun op => Proc.devRef .tc a ∉ op.writes := by
  rcases ha with rfl | rfl | rfl <;>
  · simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem V_main_arg0 (c : Dev nD) : V m c main_arg0 = m ((c : Thread nD τ).loc main_arg0) := V_arg m _ (pre_keeps _ (.inl rfl)) c
theorem V_main_arg1 (c : Dev nD) : V m c main_arg1 = m ((c : Thread nD τ).loc main_arg1) := V_arg m _ (pre_keeps _ (.inr (.inl rfl))) c
theorem V_main_arg2 (c : Dev nD) : V m c main_arg2 = m ((c : Thread nD τ).loc main_arg2) := V_arg m _ (pre_keeps _ (.inr (.inr rfl))) c

theorem tail_keeps (a : Ref sig .tc) (ha : a = main_arg0 ∨ a = main_arg1 ∨ a = main_arg2) :
    ((tailOps : List (List (HloOp τ sig (Elt F)))).flatten).Forall fun op => Proc.devRef .tc a ∉ op.writes := by
  rcases ha with rfl | rfl | rfl <;>
  · simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No later line writes an argument, and no window stages one: it ends as launched. -/
theorem W_arg (dats : (p : Fin _) → (c : Dev nD) → Dat τ (Elt F) Unit ℕ (UR sig nD τ) ℕ (cfgs p) c) (c : Dev nD)
    (a : Ref sig .tc) (ha : a = main_arg0 ∨ a = main_arg1 ∨ a = main_arg2) :
    Pipeline.afterTail₀ cfgs dats 0 (V0 m) tailOps c a = m ((c : Thread nD τ).loc a) := by
  unfold Pipeline.afterTail₀
  rw [StableHlo.after_of_forall_not_mem (b := Proc.devRef .tc a) _ _ (List.forall_iff_forall_mem.mp (tail_keeps a ha)),
    Pipeline.withArrays_of_ne _ c (V0 m c) _ a (by
      rcases ha with rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2))]
  exact V_arg m a (pre_keeps a ha) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the three arguments (no window stages one; no later line writes one). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg m dats c _ (.inl rfl)),
     ((h c).2 main_arg1 (Pipeline.mem_restRefs_of main_arg1 (by decide) (by decide))).trans (W_arg m dats c _ (.inr (.inl rfl))),
     ((h c).2 main_arg2 (Pipeline.mem_restRefs_of main_arg2 (by decide) (by decide))).trans (W_arg m dats c _ (.inr (.inr rfl)))⟩) h

/-! ## The body's accesses -/

/-- The whole 512 × 512 buffer: the sample block's load, and the two similarity blocks' stores. -/
abbrev rSq : Rect S512x512 := Rect.unit (s := S512x512) ![0, 0] S512x512.size inb_S512x512_S512x512_0_0
/-- The four column panels of the category block, one per sub-centre. -/
abbrev rW0 : Rect S512x2048 := Rect.unit (s := S512x2048) ![0, 0] S512x512.size inb_S512x2048_S512x512_0_0
abbrev rW1 : Rect S512x2048 := Rect.unit (s := S512x2048) ![0, 512] S512x512.size inb_S512x2048_S512x512_0_512
abbrev rW2 : Rect S512x2048 := Rect.unit (s := S512x2048) ![0, 1024] S512x512.size inb_S512x2048_S512x512_0_1024
abbrev rW3 : Rect S512x2048 := Rect.unit (s := S512x2048) ![0, 1536] S512x512.size inb_S512x2048_S512x512_0_1536
/-- The four rows of the reciprocal row-sum block. -/
abbrev rR0 : Rect S4x512 := Rect.unit (s := S4x512) ![0, 0] S1x512.size inb_S4x512_S1x512_0_0
abbrev rR1 : Rect S4x512 := Rect.unit (s := S4x512) ![1, 0] S1x512.size inb_S4x512_S1x512_1_0
abbrev rR2 : Rect S4x512 := Rect.unit (s := S4x512) ![2, 0] S1x512.size inb_S4x512_S1x512_2_0
abbrev rR3 : Rect S4x512 := Rect.unit (s := S4x512) ![3, 0] S1x512.size inb_S4x512_S1x512_3_0
/-- The whole 1 × 512 × 1 buffer of per-row sums. -/
abbrev rP : Rect S1x512x1 := Rect.unit (s := S1x512x1) ![0, 0, 0] S1x512x1.size inb_S1x512x1_S1x512x1_0_0_0

/-! ## What the body leaves in each output window's buffer -/

section Blocks
variable (x0 : Vec F S512x512 .bf16) (x1 : Vec F S512x2048 .f32) (x2 : Vec F S4x512 .f32)

/-- The four raw logit blocks (sample block against each sub-centre panel). -/
abbrev lg0 : FVec F S512x512 .f32 := k0_pay4 (View.ld x0 rSq) (View.ld x1 rW0)
abbrev lg1 : FVec F S512x512 .f32 := k0_pay6 (View.ld x0 rSq) (View.ld x1 rW1)
abbrev lg2 : FVec F S512x512 .f32 := k0_pay8 (View.ld x0 rSq) (View.ld x1 rW2)
abbrev lg3 : FVec F S512x512 .f32 := k0_pay10 (View.ld x0 rSq) (View.ld x1 rW3)
/-- The first three normalised logit blocks (each raw block times its reciprocal row sums), and the fourth's row. -/
abbrev nl0 : FVec F S512x512 .f32 := k0_pay5 (View.ld x0 rSq) (View.ld x1 rW0) (View.ld x2 rR0)
abbrev nl1 : FVec F S512x512 .f32 := k0_pay7 (View.ld x0 rSq) (View.ld x1 rW1) (View.ld x2 rR1)
abbrev nl2 : FVec F S512x512 .f32 := k0_pay9 (View.ld x0 rSq) (View.ld x1 rW2) (View.ld x2 rR2)
abbrev rr3 : FVec F S1x512 .f32 := k0_pay11 (View.ld x2 rR3)

/-- The raw similarity block: the body's one store into window 3's buffer. -/
def rawBlock : Vec F S512x512 .f32 :=
  View.canon [⟨rSq, k0_pay13 (lg0 x0 x1) (lg1 x0 x1) (lg2 x0 x1) (lg3 x0 x1)⟩]

/-- The normalised similarity block as the skeleton's payload. -/
abbrev normPay : FVec F S512x512 .f32 :=
  k0_pay1 (nl0 x0 x1 x2) (nl1 x0 x1 x2) (nl2 x0 x1 x2) (k0_pay12 (lg3 x0 x1) (rr3 x2))
    (k0_pay19 (nl0 x0 x1 x2) (nl1 x0 x1 x2) (nl2 x0 x1 x2) (lg3 x0 x1) (rr3 x2))
    (k0_pay20 (nl0 x0 x1 x2) (nl1 x0 x1 x2) (nl2 x0 x1 x2) (lg3 x0 x1) (rr3 x2))
    (k0_pay21 (nl0 x0 x1 x2) (nl1 x0 x1 x2) (nl2 x0 x1 x2) (lg3 x0 x1) (rr3 x2))
    (k0_pay22 (nl0 x0 x1 x2) (nl1 x0 x1 x2) (nl2 x0 x1 x2) (lg3 x0 x1) (rr3 x2))
    (k0_pay23 (nl0 x0 x1 x2) (nl1 x0 x1 x2) (nl2 x0 x1 x2) (lg3 x0 x1) (rr3 x2))

/-- The normalised similarity block: the body's one store into window 4's buffer. -/
def normBlock : Vec F S512x512 .f32 :=
  View.canon [⟨rSq, normPay x0 x1 x2⟩]

/-- The per-row sums of the normalised block: the body's one store into window 5's buffer. -/
def partBlock : Vec F S1x512x1 .f32 :=
  View.canon [⟨rP, k0_pay2 (nl0 x0 x1 x2) (nl1 x0 x1 x2) (nl2 x0 x1 x2) (k0_pay12 (lg3 x0 x1) (rr3 x2))
    (k0_pay19 (nl0 x0 x1 x2) (nl1 x0 x1 x2) (nl2 x0 x1 x2) (lg3 x0 x1) (rr3 x2))
    (k0_pay20 (nl0 x0 x1 x2) (nl1 x0 x1 x2) (nl2 x0 x1 x2) (lg3 x0 x1) (rr3 x2))
    (k0_pay21 (nl0 x0 x1 x2) (nl1 x0 x1 x2) (nl2 x0 x1 x2) (lg3 x0 x1) (rr3 x2))
    (k0_pay22 (nl0 x0 x1 x2) (nl1 x0 x1 x2) (nl2 x0 x1 x2) (lg3 x0 x1) (rr3 x2))
    (k0_pay23 (nl0 x0 x1 x2) (nl1 x0 x1 x2) (nl2 x0 x1 x2) (lg3 x0 x1) (rr3 x2))⟩]

end Blocks

/-- Each store covers its buffer whole. -/
theorem coverSq (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y
theorem coverP (p0 : Vec F S1x512x1 .f32) (y : S1x512x1.Idx) :
    ∃ pc ∈ ([⟨rP, p0⟩] : List (View.Piece (Elt F) S1x512x1 .f32)), y ∈ pc.1.set :=
  View.cover_of_tiled [⟨rP, p0⟩] S1x512x1.size (by rfl) y

/-! ## The body's triple -/

set_option maxHeartbeats 4000000 in
/-- The kernel body on whole staging memrefs — the inputs' at contents `x0 x1 x2`, the outputs' at anything — runs to its
    return holding the inputs' as they were and the three outputs' at the three blocks above. -/
theorem sound_kernel (c : Dev nD) (E : Set ℕ) (i : grid0.Coords)
    (arg2 : Memref sig .tc .vmem S512x512 .bf16) (harg2 : arg2.IsWhole) (arg3 : Memref sig .tc .vmem S512x2048 .f32) (harg3 : arg3.IsWhole)
    (arg4 : Memref sig .tc .vmem S4x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S1x512x1 .f32) (harg7 : arg7.IsWhole)
    (x0 : Vec F S512x512 .bf16) (x1 : Vec F S512x2048 .f32) (x2 : Vec F S4x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (rawBlock x0 x1) ∗ owns (c : Thread nD τ) arg6 fullShare (normBlock x0 x1 x2)
            ∗ owns (c : Thread nD τ) arg7 fullShare (partBlock x0 x1 x2)) -∗ K ⟨⟩))
      ⊢ wp frame (wpE (defs₀ (F := F)) Variants.none c none) E (cc0__soft_triple_kernel i arg2 harg2 arg3 harg3 arg4 harg4 arg5 harg5 arg6 harg6 arg7 harg7) K := by
  simp only [cc0__soft_triple_kernel_eq_skeleton]; unfold cc0__soft_triple_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverSq _)
  isplitl [H4]
  · iexists _; isplitr
    swap; · iexact H4
    ipureintro
    try dsimp only
    exact View.read_writes_eq_canon _ _ _ (coverSq _)
  iexists _; isplitr
  swap; · iexact H5
  ipureintro
  try dsimp only
  exact View.read_writes_eq_canon _ _ _ (coverP _)

/-! ## The pipeline's proof data -/

/-- The proof data of the pipeline on core `c`: the arrays as the region finds them; after the body at point `t` each
    input's buffer at its block and each output's at its block above, of the three input blocks at `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rawBlock (iblk m c 0 t) (iblk m c 1 t)
    | ⟨4, _⟩ => normBlock (iblk m c 0 t) (iblk m c 1 t) (iblk m c 2 t)
    | ⟨5, _⟩ => partBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rawBlock (iblk m c 0 t) (iblk m c 1 t) := by dsimp only [dats]
theorem after0_4 (c : Dev nD) (t : Fin cfg0.N) : (dats m 0 c).after 4 t = normBlock (iblk m c 0 t) (iblk m c 1 t) (iblk m c 2 t) := by dsimp only [dats]
theorem after0_5 (c : Dev nD) (t : Fin cfg0.N) : (dats m 0 c).after 5 t = partBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    proof data assemble (`Dat.arrAt`) and every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Frame

end
-- ==== Proof.FrameKernelIdeal.lean ====
/-
  The frame of the program: it runs to the end, faults nowhere and leaves its three argument arrays as launched,
  and after the run every array of its one pipeline holds what the per-point contents below assemble to.

  The program is host lines (reshapes of W, the row sums and their reciprocals, the narrowing of x), ONE region on a
  16 × 4 grid of (category tile, sample tile) points, and three further stretches of host lines (the regulariser, the
  clip, the gather-and-combine of the soft-triple loss). The region's body is straight-line: it loads the sample block
  (512 × 512), the four 512 × 512 column panels of the category block (512 × 2048) and the four rows of the reciprocal
  row-sum block (4 × 512), computes, and stores three results through rectangles that cover their buffers whole:
  the raw similarity block, the normalised similarity block, and the per-row sum of the latter.
  So what a point leaves in each output buffer is ONE piece: a pure function of the three input blocks
  (`rawBlock`, `normBlock`, `partBlock`), and the pipeline's arrays after the run are those pieces written
  back block by block (`Dat.arrAt`).
-/
import proofs.«409182_j25632364822733_3_alg».proof.Proof.Gen.KernelIdeal.Launch
import proofs.«409182_j25632364822733_3_alg».proof.Proof.Gen.KernelIdeal.Skeleton
import proofs.«409182_j25632364822733_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines around the region -/

/-- A core's buffer contents when the region is entered: the launch contents after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The three stretches of host lines after the region. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the region, the region, and the later lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only unscoped TensorCore buffers: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No line of a stretch writes array `w` of the pipeline: every line writes its own result buffer, which is none of the six. -/
theorem keeps_of (ops : List (HloOp τ sig (Elt F))) (w : Fin 6)
    (h : ops.Forall fun op => Proc.devRef .tc (Pipeline.arrRef spec0 w) ∉ op.writes) :
    ∀ op ∈ ops, Proc.devRef .tc (Pipeline.arrRef spec0 w) ∉ op.writes := List.forall_iff_forall_mem.mp h

theorem keeps1 (w : Fin 6) : (hostOps1 : List (HloOp τ sig (Elt F))).Forall fun op => Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem keeps1_1 (w : Fin 6) : (hostOps1_1 : List (HloOp τ sig (Elt F))).Forall fun op => Proc.devRef .tc (Pipeline.arrRef spec0 w) ∉ op.writes := by
  fin_cases w <;>
  · simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem keeps1_2 (w : Fin 6) : (hostOps1_2 : List (HloOp τ sig (Elt F))).Forall fun op => Proc.devRef .tc (Pipeline.arrRef spec0 w) ∉ op.writes := by
  fin_cases w <;>
  · simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact keeps_of _ w (keeps1 w) op hop
  · exact keeps_of _ w (keeps1_1 w) op hop
  · exact keeps_of _ w (keeps1_2 w) op hop

/-- No host line before the region writes an argument: the region finds it as launched. -/
theorem V_arg (a : Ref sig .tc) (ha : (hostOps0 : List (HloOp τ sig (Elt F))).Forall fun op => Proc.devRef .tc a ∉ op.writes) (c : Dev nD) :
    V m c a = m ((c : Thread nD τ).loc a) :=
  StableHlo.after_of_forall_not_mem (b := Proc.devRef .tc a) _ _ (List.forall_iff_forall_mem.mp (by
    simpa only [List.flatten_cons, List.flatten_nil, List.append_nil] using ha))

theorem pre_keeps (a : Ref sig .tc) (ha : a = main_arg0 ∨ a = main_arg1 ∨ a = main_arg2) :
    (hostOps0 : List (HloOp τ sig (Elt F))).Forall fun op => Proc.devRef .tc a ∉ op.writes := by
  rcases ha with rfl | rfl | rfl <;>
  · simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem V_main_arg0 (c : Dev nD) : V m c main_arg0 = m ((c : Thread nD τ).loc main_arg0) := V_arg m _ (pre_keeps _ (.inl rfl)) c
theorem V_main_arg1 (c : Dev nD) : V m c main_arg1 = m ((c : Thread nD τ).loc main_arg1) := V_arg m _ (pre_keeps _ (.inr (.inl rfl))) c
theorem V_main_arg2 (c : Dev nD) : V m c main_arg2 = m ((c : Thread nD τ).loc main_arg2) := V_arg m _ (pre_keeps _ (.inr (.inr rfl))) c

theorem tail_keeps (a : Ref sig .tc) (ha : a = main_arg0 ∨ a = main_arg1 ∨ a = main_arg2) :
    ((tailOps : List (List (HloOp τ sig (Elt F)))).flatten).Forall fun op => Proc.devRef .tc a ∉ op.writes := by
  rcases ha with rfl | rfl | rfl <;>
  · simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No later line writes an argument, and no window stages one: it ends as launched. -/
theorem W_arg (dats : (p : Fin _) → (c : Dev nD) → Dat τ (Elt F) Unit ℕ (UR sig nD τ) ℕ (cfgs p) c) (c : Dev nD)
    (a : Ref sig .tc) (ha : a = main_arg0 ∨ a = main_arg1 ∨ a = main_arg2) :
    Pipeline.afterTail₀ cfgs dats 0 (V0 m) tailOps c a = m ((c : Thread nD τ).loc a) := by
  unfold Pipeline.afterTail₀
  rw [StableHlo.after_of_forall_not_mem (b := Proc.devRef .tc a) _ _ (List.forall_iff_forall_mem.mp (tail_keeps a ha)),
    Pipeline.withArrays_of_ne _ c (V0 m c) _ a (by
      rcases ha with rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2))]
  exact V_arg m a (pre_keeps a ha) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the three arguments (no window stages one; no later line writes one). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg m dats c _ (.inl rfl)),
     ((h c).2 main_arg1 (Pipeline.mem_restRefs_of main_arg1 (by decide) (by decide))).trans (W_arg m dats c _ (.inr (.inl rfl))),
     ((h c).2 main_arg2 (Pipeline.mem_restRefs_of main_arg2 (by decide) (by decide))).trans (W_arg m dats c _ (.inr (.inr rfl)))⟩) h

/-! ## The body's accesses -/

/-- The whole 512 × 512 buffer: the sample block's load, and the two similarity blocks' stores. -/
abbrev rSq : Rect S512x512 := Rect.unit (s := S512x512) ![0, 0] S512x512.size inb_S512x512_S512x512_0_0
/-- The four column panels of the category block, one per sub-centre. -/
abbrev rW0 : Rect S512x2048 := Rect.unit (s := S512x2048) ![0, 0] S512x512.size inb_S512x2048_S512x512_0_0
abbrev rW1 : Rect S512x2048 := Rect.unit (s := S512x2048) ![0, 512] S512x512.size inb_S512x2048_S512x512_0_512
abbrev rW2 : Rect S512x2048 := Rect.unit (s := S512x2048) ![0, 1024] S512x512.size inb_S512x2048_S512x512_0_1024
abbrev rW3 : Rect S512x2048 := Rect.unit (s := S512x2048) ![0, 1536] S512x512.size inb_S512x2048_S512x512_0_1536
/-- The four rows of the reciprocal row-sum block. -/
abbrev rR0 : Rect S4x512 := Rect.unit (s := S4x512) ![0, 0] S1x512.size inb_S4x512_S1x512_0_0
abbrev rR1 : Rect S4x512 := Rect.unit (s := S4x512) ![1, 0] S1x512.size inb_S4x512_S1x512_1_0
abbrev rR2 : Rect S4x512 := Rect.unit (s := S4x512) ![2, 0] S1x512.size inb_S4x512_S1x512_2_0
abbrev rR3 : Rect S4x512 := Rect.unit (s := S4x512) ![3, 0] S1x512.size inb_S4x512_S1x512_3_0
/-- The whole 1 × 512 × 1 buffer of per-row sums. -/
abbrev rP : Rect S1x512x1 := Rect.unit (s := S1x512x1) ![0, 0, 0] S1x512x1.size inb_S1x512x1_S1x512x1_0_0_0

/-! ## What the body leaves in each output window's buffer -/

section Blocks
variable (x0 : Vec F S512x512 .bf16) (x1 : Vec F S512x2048 .f32) (x2 : Vec F S4x512 .f32)

/-- The four raw logit blocks (sample block against each sub-centre panel). -/
abbrev lg0 : FVec F S512x512 .f32 := k0_pay4 (View.ld x0 rSq) (View.ld x1 rW0)
abbrev lg1 : FVec F S512x512 .f32 := k0_pay6 (View.ld x0 rSq) (View.ld x1 rW1)
abbrev lg2 : FVec F S512x512 .f32 := k0_pay8 (View.ld x0 rSq) (View.ld x1 rW2)
abbrev lg3 : FVec F S512x512 .f32 := k0_pay10 (View.ld x0 rSq) (View.ld x1 rW3)
/-- The first three normalised logit blocks (each raw block times its reciprocal row sums), and the fourth's row. -/
abbrev nl0 : FVec F S512x512 .f32 := k0_pay5 (View.ld x0 rSq) (View.ld x1 rW0) (View.ld x2 rR0)
abbrev nl1 : FVec F S512x512 .f32 := k0_pay7 (View.ld x0 rSq) (View.ld x1 rW1) (View.ld x2 rR1)
abbrev nl2 : FVec F S512x512 .f32 := k0_pay9 (View.ld x0 rSq) (View.ld x1 rW2) (View.ld x2 rR2)
abbrev rr3 : FVec F S1x512 .f32 := k0_pay11 (View.ld x2 rR3)

/-- The raw similarity block: the body's one store into window 3's buffer. -/
def rawBlock : Vec F S512x512 .f32 :=
  View.canon [⟨rSq, k0_pay13 (lg0 x0 x1) (lg1 x0 x1) (lg2 x0 x1) (lg3 x0 x1)⟩]

/-- The normalised similarity block as the skeleton's payload. -/
abbrev normPay : FVec F S512x512 .f32 :=
  k0_pay1 (nl0 x0 x1 x2) (nl1 x0 x1 x2) (nl2 x0 x1 x2) (k0_pay12 (lg3 x0 x1) (rr3 x2))
    (k0_pay19 (nl0 x0 x1 x2) (nl1 x0 x1 x2) (nl2 x0 x1 x2) (lg3 x0 x1) (rr3 x2))
    (k0_pay20 (nl0 x0 x1 x2) (nl1 x0 x1 x2) (nl2 x0 x1 x2) (lg3 x0 x1) (rr3 x2))
    (k0_pay21 (nl0 x0 x1 x2) (nl1 x0 x1 x2) (nl2 x0 x1 x2) (lg3 x0 x1) (rr3 x2))
    (k0_pay22 (nl0 x0 x1 x2) (nl1 x0 x1 x2) (nl2 x0 x1 x2) (lg3 x0 x1) (rr3 x2))
    (k0_pay23 (nl0 x0 x1 x2) (nl1 x0 x1 x2) (nl2 x0 x1 x2) (lg3 x0 x1) (rr3 x2))

/-- The normalised similarity block: the body's one store into window 4's buffer. -/
def normBlock : Vec F S512x512 .f32 :=
  View.canon [⟨rSq, normPay x0 x1 x2⟩]

/-- The per-row sums of the normalised block: the body's one store into window 5's buffer. -/
def partBlock : Vec F S1x512x1 .f32 :=
  View.canon [⟨rP, k0_pay2 (nl0 x0 x1 x2) (nl1 x0 x1 x2) (nl2 x0 x1 x2) (k0_pay12 (lg3 x0 x1) (rr3 x2))
    (k0_pay19 (nl0 x0 x1 x2) (nl1 x0 x1 x2) (nl2 x0 x1 x2) (lg3 x0 x1) (rr3 x2))
    (k0_pay20 (nl0 x0 x1 x2) (nl1 x0 x1 x2) (nl2 x0 x1 x2) (lg3 x0 x1) (rr3 x2))
    (k0_pay21 (nl0 x0 x1 x2) (nl1 x0 x1 x2) (nl2 x0 x1 x2) (lg3 x0 x1) (rr3 x2))
    (k0_pay22 (nl0 x0 x1 x2) (nl1 x0 x1 x2) (nl2 x0 x1 x2) (lg3 x0 x1) (rr3 x2))
    (k0_pay23 (nl0 x0 x1 x2) (nl1 x0 x1 x2) (nl2 x0 x1 x2) (lg3 x0 x1) (rr3 x2))⟩]

end Blocks

/-- Each store covers its buffer whole. -/
theorem coverSq (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y
theorem coverP (p0 : Vec F S1x512x1 .f32) (y : S1x512x1.Idx) :
    ∃ pc ∈ ([⟨rP, p0⟩] : List (View.Piece (Elt F) S1x512x1 .f32)), y ∈ pc.1.set :=
  View.cover_of_tiled [⟨rP, p0⟩] S1x512x1.size (by rfl) y

/-! ## The body's triple -/

set_option maxHeartbeats 4000000 in
/-- The kernel body on whole staging memrefs — the inputs' at contents `x0 x1 x2`, the outputs' at anything — runs to its
    return holding the inputs' as they were and the three outputs' at the three blocks above. -/
theorem sound_kernel (c : Dev nD) (E : Set ℕ) (i : grid0.Coords)
    (arg2 : Memref sig .tc .vmem S512x512 .bf16) (harg2 : arg2.IsWhole) (arg3 : Memref sig .tc .vmem S512x2048 .f32) (harg3 : arg3.IsWhole)
    (arg4 : Memref sig .tc .vmem S4x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S1x512x1 .f32) (harg7 : arg7.IsWhole)
    (x0 : Vec F S512x512 .bf16) (x1 : Vec F S512x2048 .f32) (x2 : Vec F S4x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (rawBlock x0 x1) ∗ owns (c : Thread nD τ) arg6 fullShare (normBlock x0 x1 x2)
            ∗ owns (c : Thread nD τ) arg7 fullShare (partBlock x0 x1 x2)) -∗ K ⟨⟩))
      ⊢ wp frame (wpE (defs₀ (F := F)) Variants.none c none) E (cc0__soft_triple_kernel i arg2 harg2 arg3 harg3 arg4 harg4 arg5 harg5 arg6 harg6 arg7 harg7) K := by
  simp only [cc0__soft_triple_kernel_eq_skeleton]; unfold cc0__soft_triple_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverSq _)
  isplitl [H4]
  · iexists _; isplitr
    swap; · iexact H4
    ipureintro
    try dsimp only
    exact View.read_writes_eq_canon _ _ _ (coverSq _)
  iexists _; isplitr
  swap; · iexact H5
  ipureintro
  try dsimp only
  exact View.read_writes_eq_canon _ _ _ (coverP _)

/-! ## The pipeline's proof data -/

/-- The proof data of the pipeline on core `c`: the arrays as the region finds them; after the body at point `t` each
    input's buffer at its block and each output's at its block above, of the three input blocks at `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rawBlock (iblk m c 0 t) (iblk m c 1 t)
    | ⟨4, _⟩ => normBlock (iblk m c 0 t) (iblk m c 1 t) (iblk m c 2 t)
    | ⟨5, _⟩ => partBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rawBlock (iblk m c 0 t) (iblk m c 1 t) := by dsimp only [dats]
theorem after0_4 (c : Dev nD) (t : Fin cfg0.N) : (dats m 0 c).after 4 t = normBlock (iblk m c 0 t) (iblk m c 1 t) (iblk m c 2 t) := by dsimp only [dats]
theorem after0_5 (c : Dev nD) (t : Fin cfg0.N) : (dats m 0 c).after 5 t = partBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    proof data assemble (`Dat.arrAt`) and every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Frame

end
-- ==== Proof.Spec.lean ====
/-
  The mathematics both programs compute, stated once over the extended reals, index by index.

  For a sample `b`, a category `c` and a sub-centre `k` the LOGIT is the inner product of the sample's embedding with
  the sub-centre's row. The SOFT SIMILARITY of `b` to `c` is the softmax-weighted mean of the four logits,
  `∑ₖ softmaxₖ(v / γ) · vₖ`; it is taken twice, of the raw logits and of the logits divided by the sub-centre's
  row sum. The kernel arranges it as `(∑ₖ eₖ vₖ) / (∑ₖ eₖ)` with `eₖ = exp (vₖ · g − maxⱼ vⱼ · g)`, `g` the
  reciprocal of γ (`softMean`); the reference as `∑ₖ (eₖ / ∑ⱼ eⱼ) · vₖ` with `eₖ = exp (vₖ / γ − maxⱼ vⱼ / γ)`
  (`refMean`). On real logits both are the real number `meanR`.
-/
import Idealize.ShloMosaic.PureOps.Ideal
import Idealize.ShloMosaic.Lib.ValueIdx

noncomputable section

open scoped BigOperators

namespace Cert.SoftTriple

open Idealize.ShloMosaic Idealize.ShloMosaic.ValueIdx

/-- The sample embeddings, [2048, 512]. -/
abbrev SX : Shape := ⟨2, ![2048, 512]⟩
/-- The sub-centre rows, [8192, 4, 512]: category, sub-centre, feature. -/
abbrev SW : Shape := ⟨3, ![8192, 4, 512]⟩
/-- One number per sub-centre, [8192, 4]. -/
abbrev SR : Shape := ⟨2, ![8192, 4]⟩
/-- One number per (sample, category), [2048, 8192]. -/
abbrev SS : Shape := ⟨2, ![2048, 8192]⟩

/-- γ as the reference writes it: the binary32 number nearest one tenth. -/
abbrev gammaLit : EReal := Ideal.ofBits .f32 0x3DCCCCCD#32
/-- The kernel's multiplier: the reciprocal of that number, exactly. -/
abbrev invGamma : EReal := ((134217728 / 13421773 : ℝ) : EReal)
/-- The zero, the one and the −∞ the programs spell as binary32 words. -/
abbrev zeroLit : EReal := Ideal.ofBits .f32 0x00000000#32
abbrev oneLit : EReal := Ideal.ofBits .f32 0x3F800000#32
abbrev negInfLit : EReal := Ideal.ofBits .f32 0xFF800000#32

/-- The logit of sample `b` against sub-centre `k` of category `c`. -/
def logit (x : SX.Idx → EReal) (w : SW.Idx → EReal) (b : Fin 2048) (c : Fin 8192) (k : Fin 4) : EReal :=
  ∑ d : Fin 512, x (ix2 b d) * w (ix3 c k d)

/-- The largest of the four scaled values, associated as the kernel takes it. -/
def scaledMax (g : EReal) (v : Fin 4 → EReal) : EReal :=
  max (max (max (v 0 * g) (v 1 * g)) (v 2 * g)) (v 3 * g)

/-- The softmax-weighted mean of four values in the kernel's arrangement: one quotient of two four-term sums. -/
def softMean (g : EReal) (v : Fin 4 → EReal) : EReal :=
  Ideal.div
    (Ideal.exp (v 0 * g - scaledMax g v) * v 0 + Ideal.exp (v 1 * g - scaledMax g v) * v 1
      + Ideal.exp (v 2 * g - scaledMax g v) * v 2 + Ideal.exp (v 3 * g - scaledMax g v) * v 3)
    (Ideal.exp (v 0 * g - scaledMax g v) + Ideal.exp (v 1 * g - scaledMax g v)
      + Ideal.exp (v 2 * g - scaledMax g v) + Ideal.exp (v 3 * g - scaledMax g v))

/-- The kernel's raw soft similarity of sample `b` to category `c`. -/
def simRaw (x : SX.Idx → EReal) (w : SW.Idx → EReal) (b : Fin 2048) (c : Fin 8192) : EReal :=
  softMean invGamma fun k => logit x w b c k

/-- The kernel's normalised soft similarity: each logit times the reciprocal of its sub-centre's row sum `rs`. -/
def simNorm (x : SX.Idx → EReal) (w : SW.Idx → EReal) (rs : SR.Idx → EReal) (b : Fin 2048) (c : Fin 8192) : EReal :=
  softMean invGamma fun k => logit x w b c k * Ideal.div oneLit (rs (ix2 c k))

/-- The largest of the four values divided by γ, as the reference takes it: a fold of `max` from −∞, then once more against −∞. -/
def refMax (v : Fin 4 → EReal) : EReal :=
  max negInfLit ((Finset.univ : Finset (Fin 4)).fold max negInfLit (fun k => Ideal.div (v k) gammaLit))

/-- The softmax-weighted mean of four values in the reference's arrangement: the sum of the weights times the values. -/
def refMean (v : Fin 4 → EReal) : EReal :=
  zeroLit + ∑ k : Fin 4,
    Ideal.div (Ideal.exp (Ideal.div (v k) gammaLit - refMax v))
      (zeroLit + ∑ j : Fin 4, Ideal.exp (Ideal.div (v j) gammaLit - refMax v)) * v k

/-- The same mean over real values, as a real number: what both arrangements denote. -/
def meanR (g : ℝ) (l : Fin 4 → ℝ) : ℝ :=
  (∑ k : Fin 4, Real.exp (l k * g - max (max (max (l 0 * g) (l 1 * g)) (l 2 * g)) (l 3 * g)) * l k)
    / (∑ k : Fin 4, Real.exp (l k * g - max (max (max (l 0 * g) (l 1 * g)) (l 2 * g)) (l 3 * g)))

end Cert.SoftTriple

end
-- ==== Proof.KBlocksPart.lean ====
/-
  Row `p` of the third output block is the sum over the 512 columns of row `p` of the normalised similarity block:
  a lane sum of the block the body has just stored, reshaped [512] → [512, 1] → [1, 512, 1].
-/
import proofs.«409182_j25632364822733_3_alg».proof.Proof.FrameKernelIdeal
import proofs.«409182_j25632364822733_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlocksPart

open Cert.KernelIdeal Cert.KernelIdeal.Gen Cert.KernelIdeal.Frame Cert.SoftTriple
open Idealize.ShloMosaic Idealize.ShloMosaic.TcCoe Idealize.ShloMosaic.ValueIdx

/-- The reduced index `p` with column `q` put back is (p, q). -/
private theorem lift_row (h : S512x512.Reduces [1] S512) (p : Fin 512) (q : Fin 512) :
    h.lift (ix1 p) (q : Fin (S512x512.size 1)) = ix2 p q := by
  funext c; apply Fin.ext
  match c with
  | ⟨0, _⟩ => rfl
  | ⟨1, _⟩ => rfl

/-- A lane sum of a 512 × 512 block, reshaped [512] → [512, 1] → [1, 512, 1], read at (0, p, 0), is the sum of row `p`. -/
private theorem rowSum_apply (v : FVec Ideal S512x512 .f32) (p : Fin 512) :
    shapeCast S1x512x1 (shapeCast S512x1
      (multiReduction (F := Ideal) .add [1] S512 v 0x00000000#32 reduces_S512x512_S512 (.inl rfl) rfl)
      shapeCasts_S512_S512x1) shapeCasts_S512x1_S1x512x1 (ix3 (0 : Fin 1) p (0 : Fin 1))
      = ∑ q : Fin 512, v (ix2 p q) := by
  refine (shapeCast_apply _ shapeCasts_S512x1_S1x512x1 (ix3 (0 : Fin 1) p (0 : Fin 1)) (ix2 p (0 : Fin 1)) ?_).trans ?_
  · rw [Shape.rowMajor_val_two, Shape.rowMajor_val_three]
    show p.val * 1 + 0 = (0 * 512 + p.val) * 1 + 0
    omega
  refine (shapeCast_apply _ shapeCasts_S512_S512x1 (ix2 p (0 : Fin 1)) (ix1 p) ?_).trans ?_
  · rw [Shape.rowMajor_val_one, Shape.rowMajor_val_two]
    show p.val = p.val * 1 + 0
    omega
  refine (Ideal.multiReduction_add_single v 0x00000000#32 reduces_S512x512_S512 _ _ (ix1 p)).trans ?_
  exact Finset.sum_congr rfl fun q _ => congrArg v (lift_row _ p q)

variable (x0 : Vec Ideal S512x512 .bf16) (x1 : Vec Ideal S512x2048 .f32) (x2 : Vec Ideal S4x512 .f32)

theorem partBlock_apply (p : Fin 512) :
    partBlock x0 x1 x2 (ix3 (0 : Fin 1) p (0 : Fin 1)) = ∑ q : Fin 512, normBlock x0 x1 x2 (ix2 p q) := by
  -- each buffer is written by one store that covers it whole: the buffer read at an index is that store's payload there
  have hz3 : (![0, 0, 0] : Fin 3 → Nat) = fun _ => 0 := funext fun a => by fin_cases a <;> rfl
  have hz2 : (![0, 0] : Fin 2 → Nat) = fun _ => 0 := funext fun a => by fin_cases a <;> rfl
  unfold partBlock normBlock
  rw [View.canon_unit_zero hz3, View.canon_unit_zero hz2]
  -- the per-row payload is the lane sum of the normalised payload, reshaped
  unfold k0_pay2
  exact rowSum_apply _ p

end Cert.KernelIdeal.BlocksPart

end
-- ==== Proof.KBlocks.lean ====
/-
  One block of the region, read at an index.

  At a grid point the body holds the sample block `x0` (512 samples × 512 features), the category block `x1`
  (512 categories × 2048 = 4 sub-centres × 512 features, sub-centre `k` in columns `512 k … 512 k + 511`) and the
  reciprocal row sums `x2` (4 sub-centres × 512 categories). Entry (p, q) of the raw similarity block is the
  softmax-weighted mean of the four inner products of sample row `p` with the four sub-centre rows of category `q`;
  of the normalised block, the same of those inner products each times its reciprocal row sum; and row `p` of the third
  block is the sum over `q` of the normalised block's row.
-/
import proofs.«409182_j25632364822733_3_alg».proof.Proof.FrameKernelIdeal
import proofs.«409182_j25632364822733_3_alg».proof.Proof.Spec
import proofs.«409182_j25632364822733_3_alg».proof.Proof.KBlocksPart
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Blocks

open Cert.KernelIdeal Cert.KernelIdeal.Gen Cert.KernelIdeal.Frame Cert.SoftTriple
open Idealize.ShloMosaic Idealize.ShloMosaic.TcCoe Idealize.ShloMosaic.ValueIdx

/-- Column `512 k + d` of the category block: feature `d` of sub-centre `k`. -/
abbrev panelCol (k : Fin 4) (d : Fin 512) : Fin 2048 := ⟨k.val * 512 + d.val, by have := k.isLt; have := d.isLt; omega⟩

/-- The dimension numbers of the body's four products: both operands contract their axis 1. -/
abbrev DD := dot_S512x512_S512x512_S512x512_1_1_0_0_n_n

theorem lhs_0 (i : S512x512.Idx) (q : DD.contr.Idx) : (DD.lhsIdx i q 0).val = (i 0).val := by
  unfold DotDims.lhsIdx
  rw [dif_neg (show ¬(0 : Fin S512x512.rank) ∈ DD.lhsBatch by decide), dif_pos (show (0 : Fin S512x512.rank) ∈ DD.lhsNonContracting by decide)]
  rfl
theorem lhs_1 (i : S512x512.Idx) (q : DD.contr.Idx) : (DD.lhsIdx i q 1).val = (q ⟨0, by decide⟩).val :=
  DD.lhsIdx_val_of_single rfl i q
theorem rhs_0 (i : S512x512.Idx) (q : DD.contr.Idx) : (DD.rhsIdx i q 0).val = (i 1).val := by
  unfold DotDims.rhsIdx
  rw [dif_neg (show ¬(0 : Fin S512x512.rank) ∈ DD.rhsBatch by decide), dif_pos (show (0 : Fin S512x512.rank) ∈ DD.rhsNonContracting by decide)]
  rfl
theorem rhs_1 (i : S512x512.Idx) (q : DD.contr.Idx) : (DD.rhsIdx i q 1).val = (q ⟨0, by decide⟩).val :=
  DD.rhsIdx_val_of_single rfl i q

/-- A product into the zero accumulator at (p, q): row `p` of the left operand against row `q` of the right. -/
theorem mm_apply (A B : FVec Ideal S512x512 .bf16) (p q : Fin 512) :
    matmul DD none A B (constant S512x512 .f32 0x00000000#32) (ix2 p q) = ∑ d : Fin 512, A (ix2 p d) * B (ix2 q d) := by
  refine (Ideal.matmul_constant_zero_apply DD none A B (ix2 p q)).trans ?_
  rw [← Equiv.sum_comp (contrEquiv1 DD 512 rfl rfl).symm]
  refine Finset.sum_congr rfl fun k _ => ?_
  have hk := contrEquiv1_symm_val DD 512 rfl rfl k
  have el : DD.lhsIdx (ix2 p q) ((contrEquiv1 DD 512 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 512 rfl rfl).symm k) = ix2 q k := funext fun a => Fin.ext (by
    match a with
    | ⟨0, _⟩ => exact rhs_0 _ _
    | ⟨1, _⟩ => exact (rhs_1 _ _).trans hk)
  rw [el, er]

/-! ## The loads at an index -/

theorem hz2 : (![0, 0] : Fin 2 → Nat) = fun _ => 0 := funext fun a => by fin_cases a <;> rfl
theorem hz3 : (![0, 0, 0] : Fin 3 → Nat) = fun _ => 0 := funext fun a => by fin_cases a <;> rfl

theorem ld_W0 (x1 : Vec Ideal S512x2048 .f32) (q d : Fin 512) : View.ld x1 rW0 (ix2 q d) = x1 (ix2 q (panelCol 0 d)) :=
  congrArg x1 (funext fun a => Fin.ext (by
    match a with
    | ⟨0, _⟩ => show 0 + 1 * q.val = q.val; omega
    | ⟨1, _⟩ => show 0 + 1 * d.val = 0 * 512 + d.val; omega))
theorem ld_W1 (x1 : Vec Ideal S512x2048 .f32) (q d : Fin 512) : View.ld x1 rW1 (ix2 q d) = x1 (ix2 q (panelCol 1 d)) :=
  congrArg x1 (funext fun a => Fin.ext (by
    match a with
    | ⟨0, _⟩ => show 0 + 1 * q.val = q.val; omega
    | ⟨1, _⟩ => show 512 + 1 * d.val = 1 * 512 + d.val; omega))
theorem ld_W2 (x1 : Vec Ideal S512x2048 .f32) (q d : Fin 512) : View.ld x1 rW2 (ix2 q d) = x1 (ix2 q (panelCol 2 d)) :=
  congrArg x1 (funext fun a => Fin.ext (by
    match a with
    | ⟨0, _⟩ => show 0 + 1 * q.val = q.val; omega
    | ⟨1, _⟩ => show 1024 + 1 * d.val = 2 * 512 + d.val; omega))
theorem ld_W3 (x1 : Vec Ideal S512x2048 .f32) (q d : Fin 512) : View.ld x1 rW3 (ix2 q d) = x1 (ix2 q (panelCol 3 d)) :=
  congrArg x1 (funext fun a => Fin.ext (by
    match a with
    | ⟨0, _⟩ => show 0 + 1 * q.val = q.val; omega
    | ⟨1, _⟩ => show 1536 + 1 * d.val = 3 * 512 + d.val; omega))

theorem ld_R0 (x2 : Vec Ideal S4x512 .f32) (q : Fin 512) : View.ld x2 rR0 (ix2 (0 : Fin 1) q) = x2 (ix2 (0 : Fin 4) q) :=
  congrArg x2 (funext fun a => Fin.ext (by
    match a with
    | ⟨0, _⟩ => rfl
    | ⟨1, _⟩ => show 0 + 1 * q.val = q.val; omega))
theorem ld_R1 (x2 : Vec Ideal S4x512 .f32) (q : Fin 512) : View.ld x2 rR1 (ix2 (0 : Fin 1) q) = x2 (ix2 (1 : Fin 4) q) :=
  congrArg x2 (funext fun a => Fin.ext (by
    match a with
    | ⟨0, _⟩ => rfl
    | ⟨1, _⟩ => show 0 + 1 * q.val = q.val; omega))
theorem ld_R2 (x2 : Vec Ideal S4x512 .f32) (q : Fin 512) : View.ld x2 rR2 (ix2 (0 : Fin 1) q) = x2 (ix2 (2 : Fin 4) q) :=
  congrArg x2 (funext fun a => Fin.ext (by
    match a with
    | ⟨0, _⟩ => rfl
    | ⟨1, _⟩ => show 0 + 1 * q.val = q.val; omega))
theorem ld_R3 (x2 : Vec Ideal S4x512 .f32) (q : Fin 512) : View.ld x2 rR3 (ix2 (0 : Fin 1) q) = x2 (ix2 (3 : Fin 4) q) :=
  congrArg x2 (funext fun a => Fin.ext (by
    match a with
    | ⟨0, _⟩ => rfl
    | ⟨1, _⟩ => show 0 + 1 * q.val = q.val; omega))

/-! ## The payloads at an index -/

theorem pay4_apply (v0 : Vec Ideal S512x512 .bf16) (v2 : Vec Ideal S512x512 .f32) (p q : Fin 512) :
    k0_pay4 v0 v2 (ix2 p q) = ∑ d : Fin 512, v0 (ix2 p d) * v2 (ix2 q d) := by
  refine (mm_apply (shapeCast S512x512 v0 shapeCasts_S512x512_S512x512)
    (truncf .bf16 (shapeCast S512x512 v2 shapeCasts_S512x512_S512x512) bitsLt_bf16_f32) p q).trans ?_
  rw [shapeCast_self, shapeCast_self]
  rfl
theorem pay6_apply (v0 : Vec Ideal S512x512 .bf16) (v2 : Vec Ideal S512x512 .f32) (p q : Fin 512) :
    k0_pay6 v0 v2 (ix2 p q) = ∑ d : Fin 512, v0 (ix2 p d) * v2 (ix2 q d) := pay4_apply v0 v2 p q
theorem pay8_apply (v0 : Vec Ideal S512x512 .bf16) (v2 : Vec Ideal S512x512 .f32) (p q : Fin 512) :
    k0_pay8 v0 v2 (ix2 p q) = ∑ d : Fin 512, v0 (ix2 p d) * v2 (ix2 q d) := pay4_apply v0 v2 p q
theorem pay10_apply (v0 : Vec Ideal S512x512 .bf16) (v2 : Vec Ideal S512x512 .f32) (p q : Fin 512) :
    k0_pay10 v0 v2 (ix2 p q) = ∑ d : Fin 512, v0 (ix2 p d) * v2 (ix2 q d) := pay4_apply v0 v2 p q

/-- A row cast to a vector and back, then broadcast down the rows, reads the row's entry of the column. -/
theorem rowb_apply (v6 : Vec Ideal S1x512 .f32) (p q : Fin 512) :
    broadcastTo S512x512 (shapeCast S1x512 (shapeCast S512 v6 shapeCasts_S1x512_S512) shapeCasts_S512_S1x512)
      broadcasts_S1x512_S512x512 (ix2 p q) = v6 (ix2 (0 : Fin 1) q) := by
  rw [shapeCast_shapeCast]
  exact broadcastTo_apply v6 _ (ix2 p q) (ix2 (0 : Fin 1) q) (fun a => by
    match a with
    | ⟨0, _⟩ => rfl
    | ⟨1, _⟩ => rfl)

theorem pay5_apply (v0 : Vec Ideal S512x512 .bf16) (v2 : Vec Ideal S512x512 .f32) (v6 : Vec Ideal S1x512 .f32) (p q : Fin 512) :
    k0_pay5 v0 v2 v6 (ix2 p q) = k0_pay4 v0 v2 (ix2 p q) * v6 (ix2 (0 : Fin 1) q) :=
  congrArg (k0_pay4 v0 v2 (ix2 p q) * ·) (rowb_apply v6 p q)
theorem pay7_apply (v0 : Vec Ideal S512x512 .bf16) (v2 : Vec Ideal S512x512 .f32) (v6 : Vec Ideal S1x512 .f32) (p q : Fin 512) :
    k0_pay7 v0 v2 v6 (ix2 p q) = k0_pay6 v0 v2 (ix2 p q) * v6 (ix2 (0 : Fin 1) q) :=
  congrArg (k0_pay6 v0 v2 (ix2 p q) * ·) (rowb_apply v6 p q)
theorem pay9_apply (v0 : Vec Ideal S512x512 .bf16) (v2 : Vec Ideal S512x512 .f32) (v6 : Vec Ideal S1x512 .f32) (p q : Fin 512) :
    k0_pay9 v0 v2 v6 (ix2 p q) = k0_pay8 v0 v2 (ix2 p q) * v6 (ix2 (0 : Fin 1) q) :=
  congrArg (k0_pay8 v0 v2 (ix2 p q) * ·) (rowb_apply v6 p q)
/-- The fourth: the row is cast in one payload and broadcast and multiplied in the next. -/
theorem pay12_apply (v32 : FVec Ideal S512x512 .f32) (v33 : Vec Ideal S1x512 .f32) (p q : Fin 512) :
    k0_pay12 v32 (k0_pay11 v33) (ix2 p q) = v32 (ix2 p q) * v33 (ix2 (0 : Fin 1) q) :=
  congrArg (v32 (ix2 p q) * ·) (rowb_apply v33 p q)

/-- The kernel's multiplier is the reciprocal of γ, by the certificate's table. -/
theorem invGamma_named : Named.named (F := Ideal) Cert.KernelIdeal.κ "inv_gamma" (φ := .f32) 0x41200000#32 = invGamma :=
  IdealRules.named_const.ideal_named_scalar _ _ _ _ rfl

/-- The raw mean's payload at an index is the softmax-weighted mean of the four blocks' entries there. -/
theorem pay13_apply (a b c d : FVec Ideal S512x512 .f32) (i : S512x512.Idx) (w : Fin 4 → EReal)
    (h0 : w 0 = a i) (h1 : w 1 = b i) (h2 : w 2 = c i) (h3 : w 3 = d i) :
    k0_pay13 a b c d i = softMean invGamma w := by
  unfold softMean scaledMax
  rw [h0, h1, h2, h3, ← invGamma_named]
  rfl

/-- The normalised mean's payload likewise, over its four blocks (the fourth the product payload). -/
theorem pay1_apply (v10 v19 v28 v32 : FVec Ideal S512x512 .f32) (v35 : FVec Ideal S1x512 .f32) (i : S512x512.Idx) (w : Fin 4 → EReal)
    (h0 : w 0 = v10 i) (h1 : w 1 = v19 i) (h2 : w 2 = v28 i) (h3 : w 3 = k0_pay12 v32 v35 i) :
    k0_pay1 v10 v19 v28 (k0_pay12 v32 v35) (k0_pay19 v10 v19 v28 v32 v35) (k0_pay20 v10 v19 v28 v32 v35)
      (k0_pay21 v10 v19 v28 v32 v35) (k0_pay22 v10 v19 v28 v32 v35) (k0_pay23 v10 v19 v28 v32 v35) i = softMean invGamma w := by
  unfold softMean scaledMax
  rw [h0, h1, h2, h3, ← invGamma_named]
  rfl

variable (x0 : Vec Ideal S512x512 .bf16) (x1 : Vec Ideal S512x2048 .f32) (x2 : Vec Ideal S4x512 .f32)

/-- The inner product of sample row `p` with sub-centre `k` of category row `q`, inside the block. -/
def blkLogit (p q : Fin 512) (k : Fin 4) : EReal :=
  ∑ d : Fin 512, x0 (ix2 p d) * x1 (ix2 q (panelCol k d))

theorem ld_sq (p d : Fin 512) : View.ld x0 rSq (ix2 p d) = x0 (ix2 p d) :=
  congrFun (View.ld_unit_zero (S := S512x512) hz2 _ x0) _

/-! ## The four logit blocks and their normalised forms at an index -/

theorem lg0_apply (p q : Fin 512) : lg0 x0 x1 (ix2 p q) = blkLogit x0 x1 p q 0 :=
  (pay4_apply _ _ p q).trans (Finset.sum_congr rfl fun d _ => congrArg₂ (· * ·) (ld_sq x0 p d) (ld_W0 x1 q d))
theorem lg1_apply (p q : Fin 512) : lg1 x0 x1 (ix2 p q) = blkLogit x0 x1 p q 1 :=
  (pay6_apply _ _ p q).trans (Finset.sum_congr rfl fun d _ => congrArg₂ (· * ·) (ld_sq x0 p d) (ld_W1 x1 q d))
theorem lg2_apply (p q : Fin 512) : lg2 x0 x1 (ix2 p q) = blkLogit x0 x1 p q 2 :=
  (pay8_apply _ _ p q).trans (Finset.sum_congr rfl fun d _ => congrArg₂ (· * ·) (ld_sq x0 p d) (ld_W2 x1 q d))
theorem lg3_apply (p q : Fin 512) : lg3 x0 x1 (ix2 p q) = blkLogit x0 x1 p q 3 :=
  (pay10_apply _ _ p q).trans (Finset.sum_congr rfl fun d _ => congrArg₂ (· * ·) (ld_sq x0 p d) (ld_W3 x1 q d))

theorem nl0_apply (p q : Fin 512) : nl0 x0 x1 x2 (ix2 p q) = blkLogit x0 x1 p q 0 * x2 (ix2 (0 : Fin 4) q) :=
  (pay5_apply _ _ _ p q).trans (congrArg₂ (· * ·) (lg0_apply x0 x1 p q) (ld_R0 x2 q))
theorem nl1_apply (p q : Fin 512) : nl1 x0 x1 x2 (ix2 p q) = blkLogit x0 x1 p q 1 * x2 (ix2 (1 : Fin 4) q) :=
  (pay7_apply _ _ _ p q).trans (congrArg₂ (· * ·) (lg1_apply x0 x1 p q) (ld_R1 x2 q))
theorem nl2_apply (p q : Fin 512) : nl2 x0 x1 x2 (ix2 p q) = blkLogit x0 x1 p q 2 * x2 (ix2 (2 : Fin 4) q) :=
  (pay9_apply _ _ _ p q).trans (congrArg₂ (· * ·) (lg2_apply x0 x1 p q) (ld_R2 x2 q))
theorem nl3_apply (p q : Fin 512) :
    k0_pay12 (lg3 x0 x1) (rr3 x2) (ix2 p q) = blkLogit x0 x1 p q 3 * x2 (ix2 (3 : Fin 4) q) :=
  (pay12_apply _ _ p q).trans (congrArg₂ (· * ·) (lg3_apply x0 x1 p q) (ld_R3 x2 q))

/-! ## The blocks -/

theorem rawBlock_apply (p q : Fin 512) :
    rawBlock x0 x1 (ix2 p q) = softMean invGamma (fun k => blkLogit x0 x1 p q k) := by
  unfold rawBlock
  rw [View.canon_unit_zero (S := S512x512) hz2]
  exact pay13_apply _ _ _ _ _ _ (lg0_apply x0 x1 p q).symm (lg1_apply x0 x1 p q).symm (lg2_apply x0 x1 p q).symm
    (lg3_apply x0 x1 p q).symm

theorem normBlock_apply (p q : Fin 512) :
    normBlock x0 x1 x2 (ix2 p q) = softMean invGamma (fun k => blkLogit x0 x1 p q k * x2 (ix2 k q)) := by
  unfold normBlock
  rw [View.canon_unit_zero (S := S512x512) hz2]
  exact pay1_apply _ _ _ _ _ _ _ (nl0_apply x0 x1 x2 p q).symm (nl1_apply x0 x1 x2 p q).symm (nl2_apply x0 x1 x2 p q).symm
    (nl3_apply x0 x1 x2 p q).symm

theorem partBlock_apply (p : Fin 512) :
    partBlock x0 x1 x2 (ix3 (0 : Fin 1) p (0 : Fin 1)) = ∑ q : Fin 512, normBlock x0 x1 x2 (ix2 p q) := by
  exact Cert.KernelIdeal.BlocksPart.partBlock_apply x0 x1 x2 p

end Cert.KernelIdeal.Blocks

end
-- ==== Proof.KArrays.lean ====
/-
  From blocks to arrays: what the three output arrays of the pipeline hold after the run.

  The grid is 16 category tiles × 4 sample tiles. At point (ct, bt) the sample window is block (bt, 0) of the narrowed
  samples, the category window block (ct, 0) of the [8192, 2048] view of the sub-centre rows, the reciprocal window block
  (0, ct) of the [4, 8192] reciprocal row sums; the two similarity windows are block (bt, ct) of their [2048, 8192]
  arrays and the third output block (ct, bt, 0) of a [16, 2048, 1] array. Every output block is written back at its
  point, the blocks tile their arrays, so each array after the run is one function of the arrays the region found.
-/
import proofs.«409182_j25632364822733_3_alg».proof.Proof.KBlocks

set_option maxRecDepth 16384

noncomputable section

open scoped BigOperators

namespace Cert.KernelIdeal.Arrays

open Cert.KernelIdeal Cert.KernelIdeal.Gen Cert.KernelIdeal.Frame Cert.KernelIdeal.Blocks Cert.SoftTriple
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The arrays the region finds, each at its literal type: the narrowed samples (window 0's), the [8192, 2048] view of
    the sub-centre rows (window 1's), the [4, 8192] reciprocal row sums (window 2's). -/
abbrev xsArr (c : Dev nD) : S2048x512.Idx → EReal := V m c main_v6
abbrev wsArr (c : Dev nD) : S8192x2048.Idx → EReal := V m c main_v1
abbrev rcArr (c : Dev nD) : S4x8192.Idx → EReal := V m c main_v5
/-- The three output arrays after the run, each at its literal type. -/
abbrev rawArr (c : Dev nD) : S2048x8192.Idx → EReal := (dats m 0 c).arrAt 3 cfg0.N
abbrev normArr (c : Dev nD) : S2048x8192.Idx → EReal := (dats m 0 c).arrAt 4 cfg0.N
abbrev partArr (c : Dev nD) : S16x2048x1.Idx → EReal := (dats m 0 c).arrAt 5 cfg0.N

/-- The inner product of sample `b` with sub-centre `k` of category `cc`, over the arrays the region finds. -/
def arrLogit (c : Dev nD) (b : Fin 2048) (cc : Fin 8192) (k : Fin 4) : EReal :=
  ∑ d : Fin 512, xsArr m c (ix2 b d) * wsArr m c (ix2 cc (panelCol k d))

/-- The printed index maps over the grid: with (bt, ct) window 3's block index, the sample window sits at block (bt, 0),
    the category window at (ct, 0), the reciprocal window at (0, ct), window 4 at (bt, ct), window 5 at (ct, bt, 0). -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_4.index t (0 : Fin 2) = win0_3.index t (0 : Fin 2) ∧ win0_4.index t (1 : Fin 2) = win0_3.index t (1 : Fin 2)
    ∧ win0_5.index t (0 : Fin 3) = win0_3.index t (1 : Fin 2) ∧ win0_5.index t (1 : Fin 3) = win0_3.index t (0 : Fin 2)
    ∧ win0_5.index t (2 : Fin 3) = 0
    ∧ win0_3.index t (0 : Fin 2) ≤ 3 ∧ win0_3.index t (1 : Fin 2) ≤ 15 :=
  (by decide +kernel : ∀ t : Fin grid0.N, _)

/-- Every (sample tile, category tile) pair is some point's. -/
theorem idx_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

/-- The sample window's block at a point, read at an index: row `p` of the block is sample `b = 512 bt + p`. -/
theorem xs_blk (c : Dev nD) (t : Fin cfg0.N) (p d : Fin 512) (b : Fin 2048)
    (hb : b.val = win0_0.index t (0 : Fin 2) * 512 + p.val) (h1 : win0_0.index t (1 : Fin 2) = 0) :
    (iblk m c 0 t : Vec Ideal S512x512 .bf16) (ix2 p d) = xsArr m c (ix2 b d) := by
  unfold iblk
  rw [View.read_apply]
  show V m c main_v6 _ = V m c main_v6 _
  congr 1
  funext a
  apply Fin.ext
  match a with
  | ⟨0, _⟩ => show win0_0.index t (0 : Fin 2) * 512 + 1 * p.val = b.val; omega
  | ⟨1, _⟩ => show win0_0.index t (1 : Fin 2) * 512 + 1 * d.val = d.val; rw [h1]; omega

/-- The category window's block at a point, read at an index: row `q` of the block is category `cc = 512 ct + q`. -/
theorem ws_blk (c : Dev nD) (t : Fin cfg0.N) (q : Fin 512) (e : Fin 2048) (cc : Fin 8192)
    (hc : cc.val = win0_1.index t (0 : Fin 2) * 512 + q.val) (h1 : win0_1.index t (1 : Fin 2) = 0) :
    (iblk m c 1 t : Vec Ideal S512x2048 .f32) (ix2 q e) = wsArr m c (ix2 cc e) := by
  unfold iblk
  rw [View.read_apply]
  show V m c main_v1 _ = V m c main_v1 _
  congr 1
  funext a
  apply Fin.ext
  match a with
  | ⟨0, _⟩ => show win0_1.index t (0 : Fin 2) * 512 + 1 * q.val = cc.val; omega
  | ⟨1, _⟩ => show win0_1.index t (1 : Fin 2) * 2048 + 1 * e.val = e.val; rw [h1]; omega

/-- The reciprocal window's block at a point, read at an index: column `q` of the block is category `cc = 512 ct + q`. -/
theorem rc_blk (c : Dev nD) (t : Fin cfg0.N) (k : Fin 4) (q : Fin 512) (cc : Fin 8192)
    (h0 : win0_2.index t (0 : Fin 2) = 0) (hc : cc.val = win0_2.index t (1 : Fin 2) * 512 + q.val) :
    (iblk m c 2 t : Vec Ideal S4x512 .f32) (ix2 k q) = rcArr m c (ix2 k cc) := by
  unfold iblk
  rw [View.read_apply]
  show V m c main_v5 _ = V m c main_v5 _
  congr 1
  funext a
  apply Fin.ext
  match a with
  | ⟨0, _⟩ => show win0_2.index t (0 : Fin 2) * 4 + 1 * k.val = k.val; rw [h0]; omega
  | ⟨1, _⟩ => show win0_2.index t (1 : Fin 2) * 512 + 1 * q.val = cc.val; omega

/-- The whole-array functions the three output arrays end holding. -/
def rawG (c : Dev nD) : S2048x8192.Idx → EReal := fun i => softMean invGamma (fun k => arrLogit m c (i 0) (i 1) k)
def normG (c : Dev nD) : S2048x8192.Idx → EReal :=
  fun i => softMean invGamma (fun k => arrLogit m c (i 0) (i 1) k * rcArr m c (ix2 k (i 1)))

/-- Blocks that read the arrays at sample `b` (row `p`) and category `cc` (row `q`) have the arrays' inner products. -/
theorem blkLogit_of (xs : S2048x512.Idx → EReal) (ws : S8192x2048.Idx → EReal)
    (x0 : Vec Ideal S512x512 .bf16) (x1 : Vec Ideal S512x2048 .f32) (p q : Fin 512) (b : Fin 2048) (cc : Fin 8192)
    (h0 : ∀ d : Fin 512, x0 (ix2 p d) = xs (ix2 b d)) (h1 : ∀ e : Fin 2048, x1 (ix2 q e) = ws (ix2 cc e)) (k : Fin 4) :
    blkLogit x0 x1 p q k = ∑ d : Fin 512, xs (ix2 b d) * ws (ix2 cc (panelCol k d)) := by
  unfold blkLogit
  exact Finset.sum_congr rfl fun d _ => by rw [h0 d, h1 (panelCol k d)]

/-- Entry (p, q) of the raw block at a point is the raw function at (512 bt + p, 512 ct + q). -/
theorem raw_point (c : Dev nD) (t : Fin cfg0.N) (p q : Fin 512) (b : Fin 2048) (cc : Fin 8192)
    (hb : b.val = win0_3.index t (0 : Fin 2) * 512 + p.val) (hc : cc.val = win0_3.index t (1 : Fin 2) * 512 + q.val) :
    rawBlock (iblk m c 0 t) (iblk m c 1 t) (ix2 p q) = softMean invGamma (fun k => arrLogit m c b cc k) := by
  obtain ⟨e00, e01, e10, e11, e20, e21, e40, e41, e50, e51, e52, l0, l1⟩ := idx_facts t
  refine (rawBlock_apply (iblk m c 0 t) (iblk m c 1 t) p q).trans ?_
  congr 1
  funext k
  exact blkLogit_of (xsArr m c) (wsArr m c) (iblk m c 0 t) (iblk m c 1 t) p q b cc
    (fun d => xs_blk m c t p d b (by omega) e01) (fun e => ws_blk m c t q e cc (by omega) e11) k

/-- What a point writes back into the raw similarity array is its block of the raw function. -/
theorem flushed3_eq (c : Dev nD) (t : Fin cfg0.N) :
    (dats m 0 c).flushed 3 t = ((cfg0.win 3).blk t).view.read (Elt Ideal) (rawG m c) := by
  show (cfg0.win 3).cut (grid0.coords t) ((dats m 0 c).after 3 t) = _
  rw [after0_3]
  funext j
  show rawBlock (iblk m c 0 t) (iblk m c 1 t) j = rawG m c (((cfg0.win 3).blk t).view.emb j)
  have hj : (j : S512x512.Idx) = ix2 (j 0) (j 1) := eq_ix2 (n0 := 512) (n1 := 512) j
  rw [hj]
  exact raw_point m c t (j 0) (j 1) _ _
    (show win0_3.index t (0 : Fin 2) * 512 + 1 * (j 0).val = _ by omega)
    (show win0_3.index t (1 : Fin 2) * 512 + 1 * (j 1).val = _ by omega)

/-- An index of the raw similarity array is in a point's block iff each coordinate is in the block's range. -/
theorem mem_blk3 (t : Fin cfg0.N) (i : S2048x8192.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v7_0).slice (win0_3.rect t)).set ↔ _
  rw [View.set_slice_whole, Rect.mem_set_unit]
  exact Iff.rfl

/-- Every index of the raw similarity array is in some point's block: sample tile `b / 512`, category tile `cc / 512`. -/
theorem cover3 (i : S2048x8192.Idx) :
    ∃ t : Fin cfg0.N, (cfg0.win 3).flush t = true ∧ i ∈ ((cfg0.win 3).blk t).view.set := by
  have hi0 : (i 0).val < 2048 := (i 0).isLt
  have hi1 : (i 1).val < 8192 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The raw similarity array after the run is the raw function. -/
theorem raw_arr (c : Dev nD) : rawArr m c = rawG m c :=
  (dats m 0 c).arrAt_eq_of_cover 3 (rawG m c) (fun t _ => flushed3_eq m c t) cover3

/-- The raw similarity array after the run. -/
theorem raw_final (c : Dev nD) (b : Fin 2048) (cc : Fin 8192) :
    rawArr m c (ix2 b cc) = softMean invGamma (fun k => arrLogit m c b cc k) := by
  exact congrFun (raw_arr m c) (ix2 b cc)

/-- The same with each inner product times the reciprocal block's entry, which reads the reciprocal array at (k, cc). -/
theorem normVal_of (xs : S2048x512.Idx → EReal) (ws : S8192x2048.Idx → EReal) (rc : S4x8192.Idx → EReal)
    (x0 : Vec Ideal S512x512 .bf16) (x1 : Vec Ideal S512x2048 .f32) (x2 : Vec Ideal S4x512 .f32)
    (p q : Fin 512) (b : Fin 2048) (cc : Fin 8192)
    (h0 : ∀ d : Fin 512, x0 (ix2 p d) = xs (ix2 b d)) (h1 : ∀ e : Fin 2048, x1 (ix2 q e) = ws (ix2 cc e))
    (h2 : ∀ k : Fin 4, x2 (ix2 k q) = rc (ix2 k cc)) :
    softMean invGamma (fun k => blkLogit x0 x1 p q k * x2 (ix2 k q))
      = softMean invGamma (fun k => (∑ d : Fin 512, xs (ix2 b d) * ws (ix2 cc (panelCol k d))) * rc (ix2 k cc)) := by
  congr 1
  funext k
  rw [blkLogit_of xs ws x0 x1 p q b cc h0 h1 k, h2 k]

/-- Entry (p, q) of the normalised block at a point is the normalised function at (512 bt + p, 512 ct + q). -/
theorem norm_point (c : Dev nD) (t : Fin cfg0.N) (p q : Fin 512) (b : Fin 2048) (cc : Fin 8192)
    (hb : b.val = win0_3.index t (0 : Fin 2) * 512 + p.val) (hc : cc.val = win0_3.index t (1 : Fin 2) * 512 + q.val) :
    normBlock (iblk m c 0 t) (iblk m c 1 t) (iblk m c 2 t) (ix2 p q)
      = softMean invGamma (fun k => arrLogit m c b cc k * rcArr m c (ix2 k cc)) := by
  obtain ⟨e00, e01, e10, e11, e20, e21, e40, e41, e50, e51, e52, l0, l1⟩ := idx_facts t
  refine (normBlock_apply (iblk m c 0 t) (iblk m c 1 t) (iblk m c 2 t) p q).trans ?_
  exact normVal_of (xsArr m c) (wsArr m c) (rcArr m c) (iblk m c 0 t) (iblk m c 1 t) (iblk m c 2 t) p q b cc
    (fun d => xs_blk m c t p d b (by omega) e01) (fun e => ws_blk m c t q e cc (by omega) e11)
    (fun k => rc_blk m c t k q cc e20 (by omega))

/-- What a point writes back into the normalised similarity array is its block of the normalised function. -/
theorem flushed4_eq (c : Dev nD) (t : Fin cfg0.N) :
    (dats m 0 c).flushed 4 t = ((cfg0.win 4).blk t).view.read (Elt Ideal) (normG m c) := by
  obtain ⟨e00, e01, e10, e11, e20, e21, e40, e41, e50, e51, e52, l0, l1⟩ := idx_facts t
  show (cfg0.win 4).cut (grid0.coords t) ((dats m 0 c).after 4 t) = _
  rw [after0_4]
  funext j
  show normBlock (iblk m c 0 t) (iblk m c 1 t) (iblk m c 2 t) j = normG m c (((cfg0.win 4).blk t).view.emb j)
  have hj : (j : S512x512.Idx) = ix2 (j 0) (j 1) := eq_ix2 (n0 := 512) (n1 := 512) j
  rw [hj]
  exact norm_point m c t (j 0) (j 1) _ _
    (show win0_4.index t (0 : Fin 2) * 512 + 1 * (j 0).val = _ by omega)
    (show win0_4.index t (1 : Fin 2) * 512 + 1 * (j 1).val = _ by omega)

/-- An index of the normalised similarity array is in a point's block iff each coordinate is in the block's range. -/
theorem mem_blk4 (t : Fin cfg0.N) (i : S2048x8192.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v7_1).slice (win0_4.rect t)).set ↔ _
  rw [View.set_slice_whole, Rect.mem_set_unit]
  exact Iff.rfl

/-- Every index of the normalised similarity array is in some point's block. -/
theorem cover4 (i : S2048x8192.Idx) :
    ∃ t : Fin cfg0.N, (cfg0.win 4).flush t = true ∧ i ∈ ((cfg0.win 4).blk t).view.set := by
  have hi0 : (i 0).val < 2048 := (i 0).isLt
  have hi1 : (i 1).val < 8192 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  obtain ⟨e00, e01, e10, e11, e20, e21, e40, e41, e50, e51, e52, l0, l1⟩ := idx_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The normalised similarity array after the run is the normalised function. -/
theorem norm_arr (c : Dev nD) : normArr m c = normG m c :=
  (dats m 0 c).arrAt_eq_of_cover 4 (normG m c) (fun t _ => flushed4_eq m c t) cover4

/-- The normalised similarity array after the run. -/
theorem norm_final (c : Dev nD) (b : Fin 2048) (cc : Fin 8192) :
    normArr m c (ix2 b cc) = softMean invGamma (fun k => arrLogit m c b cc k * rcArr m c (ix2 k cc)) := by
  exact congrFun (norm_arr m c) (ix2 b cc)

/-- Category `512 ct + q`: column `q` of category tile `ct`. -/
abbrev tileCol (ct : Fin 16) (q : Fin 512) : Fin 8192 := ⟨ct.val * 512 + q.val, by have := ct.isLt; have := q.isLt; omega⟩

/-- The whole-array function the per-tile row sums end holding. -/
def partG (c : Dev nD) : S16x2048x1.Idx → EReal := fun i => ∑ q : Fin 512, normG m c (ix2 (i 1) (tileCol (i 0) q))

/-- Row `p` of the third block at a point is the sum of the normalised function over category tile `ct` at sample `512 bt + p`. -/
theorem part_point (c : Dev nD) (t : Fin cfg0.N) (p : Fin 512) (ct : Fin 16) (b : Fin 2048)
    (hct : ct.val = win0_3.index t (1 : Fin 2)) (hb : b.val = win0_3.index t (0 : Fin 2) * 512 + p.val) :
    partBlock (iblk m c 0 t) (iblk m c 1 t) (iblk m c 2 t) (ix3 (0 : Fin 1) p (0 : Fin 1))
      = ∑ q : Fin 512, normG m c (ix2 b (tileCol ct q)) := by
  refine (partBlock_apply (iblk m c 0 t) (iblk m c 1 t) (iblk m c 2 t) p).trans ?_
  exact Finset.sum_congr rfl fun q _ => norm_point m c t p q b (tileCol ct q) hb
    (show ct.val * 512 + q.val = _ by omega)

/-- What a point writes back into the per-tile row sums is its block of their function. -/
theorem flushed5_eq (c : Dev nD) (t : Fin cfg0.N) :
    (dats m 0 c).flushed 5 t = ((cfg0.win 5).blk t).view.read (Elt Ideal) (partG m c) := by
  obtain ⟨e00, e01, e10, e11, e20, e21, e40, e41, e50, e51, e52, l0, l1⟩ := idx_facts t
  show (cfg0.win 5).cut (grid0.coords t) ((dats m 0 c).after 5 t) = _
  rw [after0_5]
  funext j
  show partBlock (iblk m c 0 t) (iblk m c 1 t) (iblk m c 2 t) j = partG m c (((cfg0.win 5).blk t).view.emb j)
  have h0 : (j 0).val < 1 := (j 0).isLt
  have h2 : (j 2).val < 1 := (j 2).isLt
  have hj : (j : S1x512x1.Idx) = ix3 (0 : Fin 1) (j 1) (0 : Fin 1) := by
    refine (eq_ix3 (n0 := 1) (n1 := 512) (n2 := 1) j).trans ?_
    congr 1
    · exact Fin.ext (by show (j 0).val = 0; omega)
    · exact Fin.ext (by show (j 2).val = 0; omega)
  rw [hj]
  exact part_point m c t (j 1) _ _
    (show win0_5.index t (0 : Fin 3) * 1 + 1 * (0 : Fin 1).val = _ by show win0_5.index t (0 : Fin 3) * 1 + 1 * 0 = _; omega)
    (show win0_5.index t (1 : Fin 3) * 512 + 1 * (j 1).val = _ by omega)

/-- An index of the per-tile row sums is in a point's block iff each coordinate is in the block's range. -/
theorem mem_blk5 (t : Fin cfg0.N) (i : S16x2048x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_v7_2).slice (win0_5.rect t)).set ↔ _
  rw [View.set_slice_whole, Rect.mem_set_unit]
  exact Iff.rfl

/-- Every index of the per-tile row sums is in some point's block: category tile `ct`, sample tile `b / 512`. -/
theorem cover5 (i : S16x2048x1.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 1 := (i 2).isLt
  obtain ⟨t, ht⟩ := idx_onto ⟨(i 1).val / 512, by omega⟩ ⟨(i 0).val, by omega⟩
  have q0 : win0_3.index t (0 : Fin 2) = (i 1).val / 512 := congrFun ht 0
  have q1 : win0_3.index t (1 : Fin 2) = (i 0).val := congrFun ht 1
  obtain ⟨e00, e01, e10, e11, e20, e21, e40, e41, e50, e51, e52, l0, l1⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1 ≤ (i 2).val ∧ (i 2).val < win0_5.index t (2 : Fin 3) * 1 + 1; omega

/-- The per-tile row sums after the run are their function. -/
theorem part_arr (c : Dev nD) : partArr m c = partG m c :=
  (dats m 0 c).arrAt_eq_of_cover 5 (partG m c) (fun t _ => flushed5_eq m c t) cover5

/-- The per-tile row sums after the run: entry (ct, b, 0) is the sum of the normalised similarities of sample `b` over tile `ct`. -/
theorem part_final (c : Dev nD) (ct : Fin 16) (b : Fin 2048) :
    partArr m c (ix3 ct b (0 : Fin 1)) = ∑ q : Fin 512, normArr m c (ix2 b (tileCol ct q)) := by
  rw [norm_arr m c]
  exact congrFun (part_arr m c) (ix3 ct b (0 : Fin 1))

end Cert.KernelIdeal.Arrays

end
-- ==== Proof.TailFn.lean ====
/-
  The host lines that follow the similarities, as two functions of what they read.

  `regTerm`: the regulariser. Each sub-centre row is divided by its row sum, consecutive sub-centres of a category are
  multiplied feature by feature and summed to `d`, and the result is `0.2 · ∑ √(max 0 (2 − 2 d)) / 98304`.
  `lossTerm`: the soft-triple loss. With `j` ranging over the samples and `cat j` read as a column index (a negative
  one wrapped once by 8192), `base = exp (0.1 · (sraw[b, cat j] − 0.01))`,
  `expt = 0.1 · (tot[b] − snorm[b, cat j])`, and the term is the mean over (b, j) of `−log1p (base / (base + expt))`.
  Both programs end in `lossTerm + regTerm` of their own similarity arrays; stated once here so that the two ends are
  compared by their arguments and never opened.
-/
import proofs.«409182_j25632364822733_3_alg».proof.KernelIdeal

noncomputable section

namespace Cert.KernelIdeal.TailFn

open Cert.KernelIdeal Idealize.ShloMosaic
open Facts₀ Facts

variable {F : FTy → Type} [FloatOps F] [Named F] [Facts]

/-- The regulariser from the sub-centre rows `w3` and their row sums `rs`. -/
def regTerm (w3 : FVec F S8192x4x512 .f32) (rs : FVec F S8192x4 .f32) : FVec F S_ .f32 :=
  Host.divf
    (mulf (constant S_ .f32 0x3E4CCCCD#32)
      (Host.reduceAdd
        (Host.sqrt
          (maximumf (broadcastInDim S8192x3 ![] bcast_S_S8192x3 (id (constant S_ .f32 0x00000000#32)))
            (subf (broadcastInDim S8192x3 ![] bcast_S_S8192x3 (constant S_ .f32 0x40000000#32))
              (mulf (broadcastInDim S8192x3 ![] bcast_S_S8192x3 (constant S_ .f32 0x40000000#32))
                (Host.reduceAdd
                  (mulf
                    (extractStridedSlice S8192x3x512 ![0, 0, 0]
                      (Host.divf w3 (broadcastInDim S8192x4x512 ![0, 1, 2] bcast_S8192x4x1_S8192x4x512_0_1_2
                        (broadcastInDim S8192x4x1 ![0, 1] bcast_S8192x4_S8192x4x1_0_1 rs)))
                      slices_S8192x4x512_S8192x3x512_0_0_0)
                    (extractStridedSlice S8192x3x512 ![0, 1, 0]
                      (Host.divf w3 (broadcastInDim S8192x4x512 ![0, 1, 2] bcast_S8192x4x1_S8192x4x512_0_1_2
                        (broadcastInDim S8192x4x1 ![0, 1] bcast_S8192x4_S8192x4x1_0_1 rs)))
                      slices_S8192x4x512_S8192x3x512_0_1_0))
                  (constant S_ .f32 0x00000000#32) reducesTo_S8192x3x512_S8192x3_d2 h_S_)))))
        (constant S_ .f32 0x00000000#32) reducesTo_S8192x3_S_d0_1 h_S_))
    (constant S_ .f32 0x47C00000#32)

/-- The column index each sample's category names: a negative one wrapped once by the number of categories. -/
def catCol (cat : IVec S2048 32) : IVec S2048x1 32 :=
  broadcastInDim S2048x1 ![0] bcast_S2048_S2048x1_0
    (select (cmpi .slt cat (broadcastInDim S2048 ![] bcast_S_S2048 (constantI S_ 32 0#32)))
      (addi cat (broadcastInDim S2048 ![] bcast_S_S2048 (constantI S_ 32 8192#32))) cat)

/-- The soft-triple loss from the two similarity arrays, the per-sample totals of the normalised one, and the categories. -/
def lossTerm (sraw snorm : FVec F S2048x8192 .f32) (tot : FVec F S2048 .f32) (cat : IVec S2048 32) : FVec F S_ .f32 :=
  Host.divf
    (Host.reduceAdd
      (Host.negf (Host.log1p
        (Host.divf
          (Host.exp (mulf (broadcastInDim S2048x2048 ![] bcast_S_S2048x2048 (constant S_ .f32 0x3DCCCCCD#32))
            (subf (Host.gather gather_S2048x8192_S2048x1_S2048x2048_0_1_n_n_1_1_20481 sraw (catCol cat))
              (broadcastInDim S2048x2048 ![] bcast_S_S2048x2048 (constant S_ .f32 0x3C23D70A#32)))))
          (addf
            (Host.exp (mulf (broadcastInDim S2048x2048 ![] bcast_S_S2048x2048 (constant S_ .f32 0x3DCCCCCD#32))
              (subf (Host.gather gather_S2048x8192_S2048x1_S2048x2048_0_1_n_n_1_1_20481 sraw (catCol cat))
                (broadcastInDim S2048x2048 ![] bcast_S_S2048x2048 (constant S_ .f32 0x3C23D70A#32)))))
            (mulf (broadcastInDim S2048x2048 ![] bcast_S_S2048x2048 (constant S_ .f32 0x3DCCCCCD#32))
              (subf
                (broadcastInDim S2048x2048 ![0, 1] bcast_S2048x1_S2048x2048_0_1
                  (broadcastInDim S2048x1 ![0] bcast_S2048_S2048x1_0 tot))
                (Host.gather gather_S2048x8192_S2048x1_S2048x2048_0_1_n_n_1_1_20481 snorm (catCol cat))))))))
      (constant S_ .f32 0x00000000#32) reducesTo_S2048x2048_S_d0_1 h_S_)
    (constant S_ .f32 0x4A800000#32)

/-- What both programs return: the loss plus the regulariser. -/
def total (sraw snorm : FVec F S2048x8192 .f32) (tot : FVec F S2048 .f32) (cat : IVec S2048 32)
    (w3 : FVec F S8192x4x512 .f32) (rs : FVec F S8192x4 .f32) : FVec F S_ .f32 :=
  addf (lossTerm sraw snorm tot cat) (regTerm w3 rs)

end Cert.KernelIdeal.TailFn

end
-- ==== Proof.KTail.lean ====
/-
  The host lines around the region, read.

  Before the region: the sub-centre rows `W` [32768, 512] are viewed as `w3` [8192, 4, 512] and as [8192, 2048]; the
  row sums `rs` [8192, 4] are taken over the last axis of `w3`; their reciprocals are transposed to [4, 8192]; the
  samples are narrowed (the identity on the extended reals). After the region: the regulariser from `w3` and `rs`, the
  per-sample totals from the third output (a sum over the 16 category tiles), and the loss from the two similarity
  arrays, the totals and the categories. The program's result is `TailFn.total` of these.
-/
import proofs.«409182_j25632364822733_3_alg».proof.Proof.FrameKernelIdeal
import proofs.«409182_j25632364822733_3_alg».proof.Proof.Spec
import proofs.«409182_j25632364822733_3_alg».proof.Proof.TailFn
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Tail

open Cert.KernelIdeal Cert.KernelIdeal.Gen Cert.KernelIdeal.Frame Cert.SoftTriple
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The sub-centre rows as launched, viewed [8192, 4, 512]. -/
def wArr (c : Dev nD) : FVec Ideal S8192x4x512 .f32 :=
  shapeCast S8192x4x512 (m ((c.tc : Thread nD τ).loc main_arg1)) shapeCasts_S32768x512_S8192x4x512
/-- Their row sums. -/
def rsArr (c : Dev nD) : FVec Ideal S8192x4 .f32 :=
  Host.reduceAdd (wArr m c) (constant S_ .f32 0x00000000#32) reducesTo_S8192x4x512_S8192x4_d2 h_S_

/-- The host lines before the region leave the [8192, 4, 512] view and the row sums in their buffers. -/
theorem V_w3 (c : Dev nD) : (V m c main_v0 : S8192x4x512.Idx → EReal) = wArr m c := by
  show StableHlo.after hostOps0 (fun b => m (c, b)) (Proc.devRef .tc main_v0) = _
  after_results
  rfl
theorem V_rs (c : Dev nD) : (V m c main_v2 : S8192x4.Idx → EReal) = rsArr m c := by
  show StableHlo.after hostOps0 (fun b => m (c, b)) (Proc.devRef .tc main_v2) = _
  after_results
  rfl
/-- Window 0's array is the samples, narrowed: on the extended reals, the samples. -/
theorem V_x (c : Dev nD) (i : S2048x512.Idx) :
    (V m c main_v6 : S2048x512.Idx → EReal) i = (m ((c.tc : Thread nD τ).loc main_arg0) : S2048x512.Idx → EReal) i := by
  have e : (V m c main_v6 : S2048x512.Idx → EReal)
      = (truncf .bf16 (m ((c.tc : Thread nD τ).loc main_arg0) : FVec Ideal S2048x512 .f32) bitsLt_bf16_f32 : FVec Ideal S2048x512 .bf16) := by
    show StableHlo.after hostOps0 (fun b => m (c, b)) (Proc.devRef .tc main_v6) = _
    after_results
  rw [e]
  rfl
/-- Window 1's array at (category, 512 k + d) is feature `d` of sub-centre `k` of the category. -/
theorem V_w (c : Dev nD) (cc : Fin 8192) (k : Fin 4) (d : Fin 512) :
    (V m c main_v1 : S8192x2048.Idx → EReal) (ix2 cc (⟨k.val * 512 + d.val, by have := k.isLt; have := d.isLt; omega⟩ : Fin 2048))
      = wArr m c (ix3 cc k d) := by
  have e : (V m c main_v1 : S8192x2048.Idx → EReal)
      = shapeCast S8192x2048 (m ((c.tc : Thread nD τ).loc main_arg1) : FVec Ideal S32768x512 .f32) shapeCasts_S32768x512_S8192x2048 := by
    show StableHlo.after hostOps0 (fun b => m (c, b)) (Proc.devRef .tc main_v1) = _
    after_results
    rfl
  have hk := k.isLt
  have hd := d.isLt
  have hc := cc.isLt
  -- both views read the launched rows at row 4 cc + k, column d
  have hrow : cc.val * 4 + k.val < 32768 := by omega
  rw [e]
  unfold wArr
  refine (shapeCast_apply _ shapeCasts_S32768x512_S8192x2048 _ (ix2 (⟨cc.val * 4 + k.val, hrow⟩ : Fin 32768) d) ?_).trans
    (shapeCast_apply _ shapeCasts_S32768x512_S8192x4x512 _ (ix2 (⟨cc.val * 4 + k.val, hrow⟩ : Fin 32768) d) ?_).symm
  · rw [Shape.rowMajor_val_two, Shape.rowMajor_val_two]
    show (cc.val * 4 + k.val) * 512 + d.val = cc.val * 2048 + (k.val * 512 + d.val)
    omega
  · rw [Shape.rowMajor_val_two, Shape.rowMajor_val_three]
    show (cc.val * 4 + k.val) * 512 + d.val = (cc.val * 4 + k.val) * 512 + d.val
    rfl
/-- Window 2's array at (k, category) is the reciprocal of the row sum of sub-centre `k` of the category. -/
theorem V_r (c : Dev nD) (k : Fin 4) (cc : Fin 8192) :
    (V m c main_v5 : S4x8192.Idx → EReal) (ix2 k cc) = Ideal.div oneLit (rsArr m c (ix2 cc k)) := by
  have e : (V m c main_v5 : S4x8192.Idx → EReal)
      = transpose S4x8192 [1, 0]
          (Host.divf (broadcastInDim S8192x4 ![] bcast_S_S8192x4 (constant (F := Ideal) S_ .f32 0x3F800000#32)) (rsArr m c))
          transposes_S8192x4_S4x8192_1_0 := by
    show StableHlo.after hostOps0 (fun b => m (c, b)) (Proc.devRef .tc main_v5) = _
    after_results
    rfl
  rw [e]
  -- the transpose reads the quotient at (category, k); the quotient's numerator is the scalar one everywhere
  refine (transpose_ix2_apply _ transposes_S8192x4_S4x8192_1_0 k cc).trans ?_
  rfl

/-- The per-sample totals the later lines take from the third output: the [16, 2048, 1] array viewed [16, 2048] and summed over the tiles. -/
def totOf (p : FVec Ideal S16x2048x1 .f32) : FVec Ideal S2048 .f32 :=
  Host.reduceAdd (shapeCast S16x2048 p shapeCasts_S16x2048x1_S16x2048) (constant S_ .f32 0x00000000#32) reducesTo_S16x2048_S2048_d0 h_S_

/-- Read at a sample: zero plus the sum over the 16 tiles. -/
theorem totOf_apply (p : FVec Ideal S16x2048x1 .f32) (b : Fin 2048) :
    totOf p (ix1 b) = zeroLit + ∑ ct : Fin 16, p (ix3 ct b (0 : Fin 1)) := by
  unfold totOf
  simp only [Host.reduceAdd, Ideal.hostReduceAdd_def]
  rw [Ideal.hostReduceAdd_single reducesTo_S16x2048_S2048_d0 (by decide)]
  refine congrArg (_ + ·) (Finset.sum_congr rfl fun ct _ => ?_)
  -- the [16, 2048] view at (tile, sample) is the array at (tile, sample, 0)
  refine shapeCast_apply p shapeCasts_S16x2048x1_S16x2048 _ (ix3 ct b (0 : Fin 1)) ?_
  rw [Shape.rowMajor_val_three, Shape.rowMajor_val_two]
  show (ct.val * 2048 + b.val) * 1 + 0 = ct.val * 2048 + b.val
  omega

/-! What the region leaves in the buffers the later lines read and did not write: the three arrays the pipeline
    wrote, and three buffers that bypass it (the view of the rows, the row sums, the categories). -/
private theorem left_3 (c : Dev nD) :
    Pipeline.withArrays (cfgs 0).spec c (V0 m c) (fun w => (dats m 0 c).arrAt w (cfgs 0).N) (Proc.devRef .tc main_v7_0)
      = (dats m 0 c).arrAt 3 cfg0.N := Pipeline.withArrays_arr spec0 launch0.win.arr_inj c _ _ 3
private theorem left_4 (c : Dev nD) :
    Pipeline.withArrays (cfgs 0).spec c (V0 m c) (fun w => (dats m 0 c).arrAt w (cfgs 0).N) (Proc.devRef .tc main_v7_1)
      = (dats m 0 c).arrAt 4 cfg0.N := Pipeline.withArrays_arr spec0 launch0.win.arr_inj c _ _ 4
private theorem left_5 (c : Dev nD) :
    Pipeline.withArrays (cfgs 0).spec c (V0 m c) (fun w => (dats m 0 c).arrAt w (cfgs 0).N) (Proc.devRef .tc main_v7_2)
      = (dats m 0 c).arrAt 5 cfg0.N := Pipeline.withArrays_arr spec0 launch0.win.arr_inj c _ _ 5
private theorem left_w3 (c : Dev nD) :
    Pipeline.withArrays (cfgs 0).spec c (V0 m c) (fun w => (dats m 0 c).arrAt w (cfgs 0).N) (Proc.devRef .tc main_v0)
      = wArr m c := (Pipeline.withArrays_of_ne _ c (V0 m c) _ main_v0 (by decide)).trans (V_w3 m c)
private theorem left_rs (c : Dev nD) :
    Pipeline.withArrays (cfgs 0).spec c (V0 m c) (fun w => (dats m 0 c).arrAt w (cfgs 0).N) (Proc.devRef .tc main_v2)
      = rsArr m c := (Pipeline.withArrays_of_ne _ c (V0 m c) _ main_v2 (by decide)).trans (V_rs m c)
private theorem left_cat (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by decide)).trans (Frame.V_main_arg2 m c)

set_option maxHeartbeats 2000000 in
/-- THE RESULT: after the later host lines, the result buffer holds the loss plus the regulariser of the arrays the
    region left, the totals of the third, the categories as launched, and the sub-centre rows and row sums. -/
theorem tail_result (c : Dev nD) :
    (Pipeline.afterTail₀ cfgs (dats m) 0 (V0 m) tailOps c main_v56 : S_.Idx → EReal)
      = TailFn.total ((dats m 0 c).arrAt 3 cfg0.N : S2048x8192.Idx → EReal) ((dats m 0 c).arrAt 4 cfg0.N : S2048x8192.Idx → EReal)
          (totOf ((dats m 0 c).arrAt 5 cfg0.N : S16x2048x1.Idx → EReal))
          (m ((c.tc : Thread nD τ).loc main_arg2)) (wArr m c) (rsArr m c) := by
  unfold Pipeline.afterTail₀
  simp only [tailOps, hostOps1, hostOps1_1, hostOps1_2, List.flatten_cons, List.flatten_nil, List.append_nil, List.cons_append,
    List.nil_append]
  after_results_simp
  rw [left_3 m c, left_4 m c, left_5 m c, left_w3 m c, left_rs m c, left_cat m c]
  -- the inlined clip passes its operands through typed references: identities
  simp only [StableHlo.TRef.ofBuf, StableHlo.TRef.toBuf, cast_eq]
  -- what is left is the later lines' text over those six arrays: the two terms, written out, coincide
  unfold TailFn.total TailFn.lossTerm TailFn.regTerm TailFn.catCol totOf
  rfl

end Cert.KernelIdeal.Tail

end
-- ==== Proof.RefRead.lean ====
/-
  The reference program, read at an index.

  Its logits are one contraction over the feature axis, [2048, 8192, 4]; its soft similarity takes the softmax over the
  last axis of the logits divided by γ (a maximum, a difference, an exponential, a sum, a quotient) and sums the
  softmax weights times the logits; the normalised one does the same of the logits divided by the row sums; the
  per-sample total is the sum of the normalised similarities over the categories.
-/
import proofs.«409182_j25632364822733_3_alg».proof.Proof.Gen.ReferenceIdeal.Run
import proofs.«409182_j25632364822733_3_alg».proof.Proof.Gen.ReferenceIdeal.Read
import proofs.«409182_j25632364822733_3_alg».proof.Proof.Spec
import proofs.«409182_j25632364822733_3_alg».proof.Proof.TailFn
import proofs.«409182_j25632364822733_3_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.SoftTriple
open Idealize.ShloMosaic Idealize.ShloMosaic.TcCoe Idealize.SL.Sem Idealize.ShloMosaic.ValueIdx

variable (x : FVec Ideal S2048x512 .f32) (W : FVec Ideal S32768x512 .f32) (cat : IVec S2048 32)

/-- The logits array at (b, c, k) is the inner product of sample b with sub-centre k of category c. -/
private theorem logits_apply (b : Fin 2048) (c : Fin 8192) (k : Fin 4) :
    val_main_v2 (F := Ideal) x W (ix3 b c k) = logit x (val_main_v0 (F := Ideal) W) b c k := by
  rw [val_main_v2_apply]
  unfold logit
  refine Finset.sum_congr rfl fun d _ => ?_
  refine congrArg₂ (· * ·) (congrArg x ?_) (congrArg (val_main_v0 (F := Ideal) W) ?_)
  · exact funext fun a => Fin.ext (by match a with | ⟨0, _⟩ => rfl | ⟨1, _⟩ => rfl)
  · exact funext fun a => Fin.ext (by match a with | ⟨0, _⟩ => rfl | ⟨1, _⟩ => rfl | ⟨2, _⟩ => rfl)

/-- Inserting coordinate k on the last axis over (b, c) gives (b, c, k). -/
private theorem lift_last (h : S2048x8192x4.Reduces [2] S2048x8192) (b : Fin 2048) (c : Fin 8192) (k : Fin 4) :
    h.lift (ix2 b c) k = ix3 b c k := by
  funext a; apply Fin.ext
  match a with | ⟨0, _⟩ => rfl | ⟨1, _⟩ => rfl | ⟨2, _⟩ => rfl

/-- The scaled logits. -/
private theorem scaled_apply (j : S2048x8192x4.Idx) :
    val_main_v4 (F := Ideal) x W j = Ideal.div (val_main_v2 (F := Ideal) x W j) gammaLit := by
  rw [val_main_v4_apply, val_main_v3_apply, val_main_cst_0_apply]
  rfl

/-- The maximum of the four scaled logits. -/
private theorem max_apply (b : Fin 2048) (c : Fin 8192) :
    val_main_v7 (F := Ideal) x W (ix2 b c) = refMax (fun k => val_main_v2 (F := Ideal) x W (ix3 b c k)) := by
  have h : S2048x8192x4.Reduces [2] S2048x8192 := by decide
  rw [val_main_v7_apply, val_main_v6_apply, val_main_cst_2_apply]
  unfold val_main_v5
  have e := Host.reduce_eq_fold_single (FloatOps.maximumf (F := Ideal) (φ := .f32)) (val_main_v4 (F := Ideal) x W) (val_main_cst_1 (F := Ideal)) reducesTo_S2048x8192x4_S2048x8192_d2 h h_S_ (ix2 b c)
  refine (congrArg (FloatOps.maximumf (FloatOps.ofBits FTy.f32 4286578688#32)) e).trans ?_
  unfold refMax
  have hf : (val_main_v4 (F := Ideal) x W ∘ h.lift (ix2 b c)) = fun k : Fin 4 => Ideal.div (val_main_v2 (F := Ideal) x W (ix3 b c k)) gammaLit :=
    funext fun k => (congrArg (val_main_v4 (F := Ideal) x W) (lift_last h b c k)).trans (scaled_apply x W _)
  rw [hf]
  rfl

/-- The maximum, broadcast back over the four sub-centres. -/
private theorem maxb_apply (b : Fin 2048) (c : Fin 8192) (k : Fin 4) :
    val_main_v9 (F := Ideal) x W (ix3 b c k) = refMax (fun k => val_main_v2 (F := Ideal) x W (ix3 b c k)) := by
  rw [val_main_v9_apply, val_main_v8_apply, ← max_apply x W b c]
  exact congrArg (val_main_v7 (F := Ideal) x W) (funext fun a => Fin.ext (by match a with | ⟨0, _⟩ => rfl | ⟨1, _⟩ => rfl))

/-- The exponentials of the scaled logits less their maximum. -/
private theorem exp_apply (b : Fin 2048) (c : Fin 8192) (k : Fin 4) :
    val_main_v11 (F := Ideal) x W (ix3 b c k)
      = Ideal.exp (Ideal.div (val_main_v2 (F := Ideal) x W (ix3 b c k)) gammaLit - refMax (fun k => val_main_v2 (F := Ideal) x W (ix3 b c k))) := by
  rw [val_main_v11_apply, val_main_v10_apply, scaled_apply, maxb_apply]
  rfl

/-- Their sum over the four sub-centres, from zero. -/
private theorem den_apply (b : Fin 2048) (c : Fin 8192) :
    val_main_v12 (F := Ideal) x W (ix2 b c)
      = zeroLit + ∑ j : Fin 4, Ideal.exp (Ideal.div (val_main_v2 (F := Ideal) x W (ix3 b c j)) gammaLit - refMax (fun k => val_main_v2 (F := Ideal) x W (ix3 b c k))) := by
  rw [val_main_v12_apply]
  refine congrArg₂ (· + ·) rfl (Finset.sum_congr rfl fun j _ => ?_)
  rw [← exp_apply x W b c j]
  exact congrArg (val_main_v11 (F := Ideal) x W) (funext fun a => Fin.ext (by match a with | ⟨0, _⟩ => rfl | ⟨1, _⟩ => rfl | ⟨2, _⟩ => rfl))

/-- The sum, broadcast back over the four sub-centres. -/
private theorem denb_apply (b : Fin 2048) (c : Fin 8192) (k : Fin 4) :
    val_main_v14 (F := Ideal) x W (ix3 b c k) = val_main_v12 (F := Ideal) x W (ix2 b c) := by
  rw [val_main_v14_apply, val_main_v13_apply]
  exact congrArg (val_main_v12 (F := Ideal) x W) (funext fun a => Fin.ext (by match a with | ⟨0, _⟩ => rfl | ⟨1, _⟩ => rfl))

/-- The reference's raw soft similarity array, read at (sample, category). -/
theorem raw_apply (i : S2048x8192.Idx) :
    val_main_v17 (F := Ideal) x W i = refMean (fun k => logit x (val_main_v0 (F := Ideal) W) (i 0) (i 1) k) := by
  obtain ⟨b, c, rfl⟩ : ∃ (b : Fin 2048) (c : Fin 8192), i = ix2 b c := ⟨i 0, i 1, eq_ix2 i⟩
  show val_main_v17 (F := Ideal) x W (ix2 b c) = refMean (fun k => logit x (val_main_v0 (F := Ideal) W) b c k)
  have hl : (fun k => logit x (val_main_v0 (F := Ideal) W) b c k) = fun k => val_main_v2 (F := Ideal) x W (ix3 b c k) :=
    funext fun k => (logits_apply x W b c k).symm
  rw [hl, val_main_v17_apply]
  unfold refMean
  refine congrArg₂ (· + ·) rfl (Finset.sum_congr rfl fun k _ => ?_)
  have hi : idx_main_v17 (ix2 b c) k = ix3 b c k :=
    funext fun a => Fin.ext (by match a with | ⟨0, _⟩ => rfl | ⟨1, _⟩ => rfl | ⟨2, _⟩ => rfl)
  rw [hi, val_main_v16_apply, val_main_v15_apply, exp_apply, denb_apply, den_apply]
  rfl

/-- The normalised logits: each logit divided by its sub-centre's row sum. -/
private theorem nlogits_apply (b : Fin 2048) (c : Fin 8192) (k : Fin 4) :
    val_main_v20 (F := Ideal) x W (ix3 b c k)
      = Ideal.div (logit x (val_main_v0 (F := Ideal) W) b c k) (val_main_v1 (F := Ideal) W (ix2 c k)) := by
  rw [val_main_v20_apply, val_main_v19_apply, val_main_v18_apply, logits_apply]
  refine congrArg (Ideal.div _) (congrArg (val_main_v1 (F := Ideal) W) ?_)
  exact funext fun a => Fin.ext (by match a with | ⟨0, _⟩ => rfl | ⟨1, _⟩ => rfl)

/-- The normalised logits, scaled. -/
private theorem nscaled_apply (j : S2048x8192x4.Idx) :
    val_main_v22 (F := Ideal) x W j = Ideal.div (val_main_v20 (F := Ideal) x W j) gammaLit := by
  rw [val_main_v22_apply, val_main_v21_apply, val_main_cst_5_apply]
  rfl

/-- The maximum of the four scaled normalised logits. -/
private theorem nmax_apply (b : Fin 2048) (c : Fin 8192) :
    val_main_v25 (F := Ideal) x W (ix2 b c) = refMax (fun k => val_main_v20 (F := Ideal) x W (ix3 b c k)) := by
  have h : S2048x8192x4.Reduces [2] S2048x8192 := by decide
  rw [val_main_v25_apply, val_main_v24_apply, val_main_cst_7_apply]
  unfold val_main_v23
  have e := Host.reduce_eq_fold_single (FloatOps.maximumf (F := Ideal) (φ := .f32)) (val_main_v22 (F := Ideal) x W) (val_main_cst_6 (F := Ideal)) reducesTo_S2048x8192x4_S2048x8192_d2 h h_S_ (ix2 b c)
  refine (congrArg (FloatOps.maximumf (FloatOps.ofBits FTy.f32 4286578688#32)) e).trans ?_
  unfold refMax
  have hf : (val_main_v22 (F := Ideal) x W ∘ h.lift (ix2 b c)) = fun k : Fin 4 => Ideal.div (val_main_v20 (F := Ideal) x W (ix3 b c k)) gammaLit :=
    funext fun k => (congrArg (val_main_v22 (F := Ideal) x W) (lift_last h b c k)).trans (nscaled_apply x W _)
  rw [hf]
  rfl

/-- That maximum, broadcast back over the four sub-centres. -/
private theorem nmaxb_apply (b : Fin 2048) (c : Fin 8192) (k : Fin 4) :
    val_main_v27 (F := Ideal) x W (ix3 b c k) = refMax (fun k => val_main_v20 (F := Ideal) x W (ix3 b c k)) := by
  rw [val_main_v27_apply, val_main_v26_apply, ← nmax_apply x W b c]
  exact congrArg (val_main_v25 (F := Ideal) x W) (funext fun a => Fin.ext (by match a with | ⟨0, _⟩ => rfl | ⟨1, _⟩ => rfl))

/-- The exponentials of the scaled normalised logits less their maximum. -/
private theorem nexp_apply (b : Fin 2048) (c : Fin 8192) (k : Fin 4) :
    val_main_v29 (F := Ideal) x W (ix3 b c k)
      = Ideal.exp (Ideal.div (val_main_v20 (F := Ideal) x W (ix3 b c k)) gammaLit - refMax (fun k => val_main_v20 (F := Ideal) x W (ix3 b c k))) := by
  rw [val_main_v29_apply, val_main_v28_apply, nscaled_apply, nmaxb_apply]
  rfl

/-- Their sum over the four sub-centres, from zero. -/
private theorem nden_apply (b : Fin 2048) (c : Fin 8192) :
    val_main_v30 (F := Ideal) x W (ix2 b c)
      = zeroLit + ∑ j : Fin 4, Ideal.exp (Ideal.div (val_main_v20 (F := Ideal) x W (ix3 b c j)) gammaLit - refMax (fun k => val_main_v20 (F := Ideal) x W (ix3 b c k))) := by
  rw [val_main_v30_apply]
  refine congrArg₂ (· + ·) rfl (Finset.sum_congr rfl fun j _ => ?_)
  rw [← nexp_apply x W b c j]
  exact congrArg (val_main_v29 (F := Ideal) x W) (funext fun a => Fin.ext (by match a with | ⟨0, _⟩ => rfl | ⟨1, _⟩ => rfl | ⟨2, _⟩ => rfl))

/-- That sum, broadcast back over the four sub-centres. -/
private theorem ndenb_apply (b : Fin 2048) (c : Fin 8192) (k : Fin 4) :
    val_main_v32 (F := Ideal) x W (ix3 b c k) = val_main_v30 (F := Ideal) x W (ix2 b c) := by
  rw [val_main_v32_apply, val_main_v31_apply]
  exact congrArg (val_main_v30 (F := Ideal) x W) (funext fun a => Fin.ext (by match a with | ⟨0, _⟩ => rfl | ⟨1, _⟩ => rfl))

/-- Its normalised soft similarity array: the same of the logits divided by the row sums. -/
theorem norm_apply (i : S2048x8192.Idx) :
    val_main_v35 (F := Ideal) x W i
      = refMean (fun k => Ideal.div (logit x (val_main_v0 (F := Ideal) W) (i 0) (i 1) k) (val_main_v1 (F := Ideal) W (ix2 (i 1) k))) := by
  obtain ⟨b, c, rfl⟩ : ∃ (b : Fin 2048) (c : Fin 8192), i = ix2 b c := ⟨i 0, i 1, eq_ix2 i⟩
  show val_main_v35 (F := Ideal) x W (ix2 b c)
    = refMean (fun k => Ideal.div (logit x (val_main_v0 (F := Ideal) W) b c k) (val_main_v1 (F := Ideal) W (ix2 c k)))
  have hl : (fun k => Ideal.div (logit x (val_main_v0 (F := Ideal) W) b c k) (val_main_v1 (F := Ideal) W (ix2 c k)))
      = fun k => val_main_v20 (F := Ideal) x W (ix3 b c k) :=
    funext fun k => (nlogits_apply x W b c k).symm
  rw [hl, val_main_v35_apply]
  unfold refMean
  refine congrArg₂ (· + ·) rfl (Finset.sum_congr rfl fun k _ => ?_)
  have hi : idx_main_v35 (ix2 b c) k = ix3 b c k :=
    funext fun a => Fin.ext (by match a with | ⟨0, _⟩ => rfl | ⟨1, _⟩ => rfl | ⟨2, _⟩ => rfl)
  rw [hi, val_main_v34_apply, val_main_v33_apply, nexp_apply, ndenb_apply, nden_apply]
  rfl

/-- Its per-sample totals: zero plus the sum of the normalised similarities over the categories. -/
theorem tot_apply (b : Fin 2048) :
    val_main_v48 (F := Ideal) x W (ix1 b) = zeroLit + ∑ cc : Fin 8192, val_main_v35 (F := Ideal) x W (ix2 b cc) := by
  rw [val_main_v48_apply]
  refine congrArg₂ (· + ·) rfl (Finset.sum_congr rfl fun cc _ => ?_)
  exact congrArg (val_main_v35 (F := Ideal) x W) (funext fun a => Fin.ext (by match a with | ⟨0, _⟩ => rfl | ⟨1, _⟩ => rfl))

/-- THE RESULT: the reference's result is the loss plus the regulariser (the same two functions the kernel's program
    ends in) of its own similarity arrays, totals, the categories, and the sub-centre rows and row sums. -/
theorem result_eq :
    (val_main_v83 (F := Ideal) x W cat : S_.Idx → EReal)
      = Cert.KernelIdeal.TailFn.total (F := Ideal) (val_main_v17 (F := Ideal) x W) (val_main_v35 (F := Ideal) x W)
          (val_main_v48 (F := Ideal) x W) cat (val_main_v0 (F := Ideal) W) (val_main_v1 (F := Ideal) W) := by
  unfold val_main_v83 val_main_v66 val_main_v65 val_main_v64 val_main_v63 val_main_v62 val_main_v61 val_main_v60
    val_main_v59 val_main_v58 val_main_v57 val_main_v56 val_main_v55 val_main_v54 val_main_v53 val_main_v52
    val_main_v51 val_main_v50 val_main_v49 val_main_v47 val_main_v46 val_main_v45 val_main_v44 val_main_v43
    val_main_v42 val_main_v41 val_main_v40 val_main_v39 val_main_v38 val_main_v37 val_main_v36 val_main_c
    val_main_c_10 val_main_c_14 val_main_c_15 val_main_cst_11 val_main_cst_12 val_main_cst_16 val_main_cst_17
    val_main_cst_18 val_main_v82 val_main_v81 val_main_v80 val_main_v79 val_main_v78 val_main_call0_v1
    val_main_call0_v0 val_main_v77 val_main_v76 val_main_v75 val_main_v74 val_main_v73 val_main_v72 val_main_v71
    val_main_v70 val_main_v69 val_main_v68 val_main_v67 val_main_cst_19 val_main_cst_20 val_main_cst_21
    val_main_cst_22 val_main_cst_23 val_main_cst_24 val_main_cst_25
  generalize val_main_v17 (F := Ideal) x W = a17
  generalize val_main_v35 (F := Ideal) x W = a35
  generalize val_main_v48 (F := Ideal) x W = a48
  generalize val_main_v0 (F := Ideal) W = a0
  generalize val_main_v1 (F := Ideal) W = a1
  unfold Cert.KernelIdeal.TailFn.total Cert.KernelIdeal.TailFn.lossTerm Cert.KernelIdeal.TailFn.regTerm Cert.KernelIdeal.TailFn.catCol
  rfl

end Cert.ReferenceIdeal.RefValue

end
-- ==== Proof.MeanLaws.lean ====
/-
  The laws that join the two arrangements of the soft similarity.

  On real values `l₀ … l₃` the kernel's arrangement `(∑ eₖ lₖ) / (∑ eₖ)` with `eₖ = exp (lₖ g − max lⱼ g)` and the
  reference's `∑ (eₖ / ∑ eⱼ) lₖ` with `eₖ = exp (lₖ / γ − max lⱼ / γ)` are one real number when `g = 1 / γ`:
  dividing by γ is multiplying by g, the two maxima agree, the sum of exponentials is positive, and a quotient of a sum
  is the sum of the quotients. The extended reals carry this only through real witnesses: every step below pushes the
  coercion from ℝ outward.
-/
import proofs.«409182_j25632364822733_3_alg».proof.Proof.Spec
import Mathlib.Data.EReal.Basic
import Mathlib.Data.EReal.Operations
import Mathlib.Data.EReal.Inv
import Mathlib.Analysis.SpecialFunctions.Exp
import Mathlib.Algebra.BigOperators.Fin

noncomputable section

open scoped BigOperators

namespace Cert.SoftTriple

open Idealize.ShloMosaic Idealize.ShloMosaic.ValueIdx

/-- The literals, evaluated. -/
theorem zeroLit_eq : zeroLit = 0 := by simp [Ideal.ofBits, Ideal.ieee]
theorem oneLit_eq : oneLit = 1 := by
  rw [show (1 : EReal) = ((1 : ℝ) : EReal) by norm_cast]
  simp [Ideal.ofBits, Ideal.ieee, -EReal.coe_mul]; norm_num
theorem negInfLit_eq : negInfLit = ⊥ := by simp [Ideal.ofBits, Ideal.ieee]
theorem gammaLit_eq : gammaLit = ((13421773 / 134217728 : ℝ) : EReal) := by
  simp [Ideal.ofBits, Ideal.ieee, -EReal.coe_mul]; norm_num

/-- A finite sum of real numbers, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logit of real arrays is a real number. -/
theorem logit_coe (xr : SX.Idx → ℝ) (wr : SW.Idx → ℝ) (b : Fin 2048) (c : Fin 8192) (k : Fin 4) :
    logit (fun i => (xr i : EReal)) (fun j => (wr j : EReal)) b c k = ((∑ d : Fin 512, xr (ix2 b d) * wr (ix3 c k d) : ℝ) : EReal) := by
  unfold logit
  rw [coe_sum]
  refine Finset.sum_congr rfl fun d _ => ?_
  rw [EReal.coe_mul]

/-- A real value times the reciprocal of a nonzero real is their quotient, in either program's spelling, and is real. -/
theorem div_coe_coe (l r : ℝ) (hr : r ≠ 0) : Ideal.div (l : EReal) (r : EReal) = ((l / r : ℝ) : EReal) := by
  rw [Ideal.div_coe hr, ← EReal.coe_mul, mul_one_div]
theorem mul_recip_coe (l r : ℝ) (hr : r ≠ 0) : (l : EReal) * Ideal.div oneLit (r : EReal) = ((l / r : ℝ) : EReal) := by
  rw [oneLit_eq, Ideal.div_coe hr, one_mul, ← EReal.coe_mul, mul_one_div]

/-- A row sum of real entries (zero plus the sum) is real. -/
theorem zero_add_sum_coe {n : Nat} (f : Fin n → ℝ) : zeroLit + ∑ d : Fin n, (f d : EReal) = ((∑ d : Fin n, f d : ℝ) : EReal) := by
  rw [zeroLit_eq, zero_add, coe_sum]

/-- The coercion from ℝ is monotone, so it carries a maximum to the maximum. -/
private theorem coe_max (a b : ℝ) : ((max a b : ℝ) : EReal) = max (a : EReal) (b : EReal) :=
  EReal.coe_strictMono.monotone.map_max

/-- The kernel's maximum of four scaled real values is the real maximum. -/
private theorem scaledMax_coe (g : ℝ) (l : Fin 4 → ℝ) :
    scaledMax (g : EReal) (fun k => (l k : EReal))
      = ((max (max (max (l 0 * g) (l 1 * g)) (l 2 * g)) (l 3 * g) : ℝ) : EReal) := by
  simp only [scaledMax, coe_max, EReal.coe_mul]

/-- A sum of four exponentials is positive, whatever is subtracted in the exponent. -/
private theorem expSum_pos (g : ℝ) (l : Fin 4 → ℝ) (m : ℝ) : 0 < ∑ k : Fin 4, Real.exp (l k * g - m) :=
  Finset.sum_pos (fun k _ => Real.exp_pos _) Finset.univ_nonempty

/-- The kernel's arrangement on real values is the real mean. -/
theorem softMean_coe (g : ℝ) (l : Fin 4 → ℝ) :
    softMean (g : EReal) (fun k => (l k : EReal)) = ((meanR g l : ℝ) : EReal) := by
  unfold softMean
  rw [scaledMax_coe]
  -- every product, difference, exponential and sum of real values is real
  simp only [← EReal.coe_mul, ← EReal.coe_sub, Ideal.exp_coe, ← EReal.coe_add]
  -- the denominator is a sum of exponentials, hence not zero
  have hS := (expSum_pos g l (max (max (max (l 0 * g) (l 1 * g)) (l 2 * g)) (l 3 * g))).ne'
  rw [Fin.sum_univ_four] at hS
  rw [div_coe_coe _ _ hS]
  unfold meanR
  rw [Fin.sum_univ_four, Fin.sum_univ_four]

/-- The fold of `max` from −∞ over four values is their maximum, associated to the left. -/
private theorem fold_max_fin4 (f : Fin 4 → EReal) :
    (Finset.univ : Finset (Fin 4)).fold max ⊥ f = max (max (max (f 0) (f 1)) (f 2)) (f 3) := by
  have h : (Finset.univ : Finset (Fin 4)) = insert 0 (insert 1 (insert 2 {3})) := by decide
  rw [h, Finset.fold_insert (by decide), Finset.fold_insert (by decide), Finset.fold_insert (by decide),
    Finset.fold_singleton, max_bot_right]
  simp only [max_assoc]

/-- Dividing a real value by γ is multiplying it by the reciprocal of γ. -/
private theorem div_gamma_coe (x : ℝ) :
    Ideal.div (x : EReal) gammaLit = ((x * (134217728 / 13421773) : ℝ) : EReal) := by
  rw [gammaLit_eq, div_coe_coe _ _ (by norm_num), div_eq_mul_inv, inv_div]

/-- The reference's maximum of four real values divided by γ is the real maximum of the four scaled values. -/
private theorem refMax_coe (l : Fin 4 → ℝ) :
    refMax (fun k => (l k : EReal))
      = ((max (max (max (l 0 * (134217728 / 13421773)) (l 1 * (134217728 / 13421773)))
          (l 2 * (134217728 / 13421773))) (l 3 * (134217728 / 13421773)) : ℝ) : EReal) := by
  unfold refMax
  rw [negInfLit_eq, fold_max_fin4, max_bot_left]
  simp only [div_gamma_coe, coe_max]

/-- The reference's arrangement on real values is the real mean at the reciprocal of γ. -/
theorem refMean_coe (l : Fin 4 → ℝ) :
    refMean (fun k => (l k : EReal)) = ((meanR (134217728 / 13421773) l : ℝ) : EReal) := by
  unfold refMean
  rw [refMax_coe]
  -- each exponent is real, so each exponential is, and so is their sum
  simp only [div_gamma_coe, ← EReal.coe_sub, Ideal.exp_coe]
  rw [zero_add_sum_coe]
  -- the sum of exponentials is positive, hence not zero: each weight is a real quotient
  have hS := (expSum_pos (134217728 / 13421773) l
    (max (max (max (l 0 * (134217728 / 13421773)) (l 1 * (134217728 / 13421773)))
      (l 2 * (134217728 / 13421773))) (l 3 * (134217728 / 13421773)))).ne'
  simp only [div_coe_coe _ _ hS, ← EReal.coe_mul]
  rw [zero_add_sum_coe]
  congr 1
  -- over ℝ: the sum of the quotients times the values is the quotient of the sum
  unfold meanR
  rw [Finset.sum_div]
  refine Finset.sum_congr rfl fun k _ => ?_
  rw [div_mul_eq_mul_div]

/-- So on real values the two arrangements agree. -/
theorem softMean_eq_refMean (l : Fin 4 → ℝ) :
    softMean invGamma (fun k => (l k : EReal)) = refMean (fun k => (l k : EReal)) := by
  rw [softMean_coe, refMean_coe]

/-- A sum over the 8192 categories is the sum over the 16 tiles of the sums over each tile's 512 columns. -/
theorem sum_tiles {M : Type*} [AddCommMonoid M] (f : Fin 8192 → M) :
    ∑ ct : Fin 16, ∑ q : Fin 512, f ⟨ct.val * 512 + q.val, by have := ct.isLt; have := q.isLt; omega⟩ = ∑ cc : Fin 8192, f cc := by
  -- the pairs (tile, column) are in bijection with the categories by (ct, q) ↦ q + 512 · ct
  rw [← Fintype.sum_prod_type']
  refine Fintype.sum_equiv (finProdFinEquiv (m := 16) (n := 512)) _ _ fun x => ?_
  congr 1
  apply Fin.ext
  simp [finProdFinEquiv]
  omega

end Cert.SoftTriple

end
-- ==== Proof.PreFacts.lean ====
/-
  What the precondition says of the argument arrays, at the extended reals: every sample entry and every sub-centre
  entry is a real number (its absolute value is below +∞), and no sub-centre row sums to zero.
-/
import proofs.«409182_j25632364822733_3_alg».proof.Pre_finite_inputs
import proofs.«409182_j25632364822733_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx
open Facts

variable (x : FVec Ideal S2048x512 .f32) (W : FVec Ideal S32768x512 .f32) (cat : IVec S2048 32)

/-- The row sums as the precondition spells them. -/
def rowSums : FVec Ideal S8192x4 .f32 :=
  Host.reduceAdd (shapeCast S8192x4x512 W shapeCasts_S32768x512_S8192x4x512) (constant S_ .f32 0x00000000#32) reducesTo_S8192x4x512_S8192x4_d2 h_S_

/-- The rank-0 shape has one index. -/
private instance subsingleton_scalar_idx : Subsingleton S_.Idx := ⟨fun a b => funext fun d => d.elim0⟩

/-- The f32 word 0x7F800000 is +∞. -/
private theorem ofBits_inf_f32 : Ideal.ofBits .f32 0x7F800000#32 = (⊤ : EReal) := by
  simp [Ideal.ofBits, Ideal.ieee]

/-- An extended real whose absolute value max a (-a) is strictly below +∞ is a real number. -/
private theorem real_of_abs_lt_top (a : EReal) (h : Ideal.cmp .olt (max a (-a)) (⊤ : EReal) = 1#1) :
    ∃ r : ℝ, a = (r : EReal) := by
  induction a using EReal.rec with
  | bot => simp [Ideal.cmp] at h
  | coe r => exact ⟨r, rfl⟩
  | top => simp [Ideal.cmp] at h

/-- The three conjuncts of the precondition, each read at an index. -/
private theorem decode (h : fn (F := Ideal) x W cat = fun _ => 1#1) :
    (∀ i : S2048x512.Idx, Ideal.cmp .olt (max (x i) (-(x i))) (⊤ : EReal) = 1#1) ∧
    (∀ i : S32768x512.Idx, Ideal.cmp .olt (max (W i) (-(W i))) (⊤ : EReal) = 1#1) ∧
    (∀ i : S8192x4.Idx, Ideal.cmp .une (rowSums W i) (0 : EReal) = 1#1) := by
  have h0 := congrFun h ValueIdx.ix0
  dsimp only [fn] at h0
  obtain ⟨h8, h13⟩ := IntOp.andi_eq_one.1 h0
  obtain ⟨h3, h7⟩ := IntOp.andi_eq_one.1 h8
  refine ⟨fun i => ?_, fun i => ?_, fun i => ?_⟩
  · have e := Host.reduce_andi_all _ _ _ _ _ h3 i
    simpa only [cmpf, Host.absf, broadcastInDim, constant, Ideal.cmpf_def, Ideal.hostAbsf_def, Ideal.absf_def,
      Ideal.ofBits_def, ofBits_inf_f32] using e
  · have e := Host.reduce_andi_all _ _ _ _ _ h7 i
    simpa only [cmpf, Host.absf, broadcastInDim, constant, Ideal.cmpf_def, Ideal.hostAbsf_def, Ideal.absf_def,
      Ideal.ofBits_def, ofBits_inf_f32] using e
  · have e := Host.reduce_andi_all _ _ _ _ _ h13 i
    simpa only [cmpf, broadcastInDim, constant, Ideal.cmpf_def, Ideal.ofBits_def, Ideal.ofBits_zero_f32, rowSums] using e

/-- Under the precondition every sample entry is a real number. -/
theorem x_real (h : fn (F := Ideal) x W cat = fun _ => 1#1) : ∃ xr : S2048x512.Idx → ℝ, x = fun i => (xr i : EReal) := by
  obtain ⟨hx, -, -⟩ := decode x W cat h
  refine ⟨fun i => (x i).toReal, funext fun i => ?_⟩
  obtain ⟨r, hr⟩ := real_of_abs_lt_top (x i) (hx i)
  show x i = (((x i).toReal : ℝ) : EReal)
  rw [hr, EReal.toReal_coe]

/-- Every sub-centre entry is a real number. -/
theorem W_real (h : fn (F := Ideal) x W cat = fun _ => 1#1) : ∃ wr : S32768x512.Idx → ℝ, W = fun i => (wr i : EReal) := by
  obtain ⟨-, hW, -⟩ := decode x W cat h
  refine ⟨fun i => (W i).toReal, funext fun i => ?_⟩
  obtain ⟨r, hr⟩ := real_of_abs_lt_top (W i) (hW i)
  show W i = (((W i).toReal : ℝ) : EReal)
  rw [hr, EReal.toReal_coe]

/-- No sub-centre row sums to zero. -/
theorem rowSums_ne_zero (h : fn (F := Ideal) x W cat = fun _ => 1#1) (i : S8192x4.Idx) : rowSums W i ≠ 0 := by
  obtain ⟨-, -, hs⟩ := decode x W cat h
  intro hz
  have hi := hs i
  rw [hz] at hi
  simp [Ideal.cmp] at hi

end Cert.Pre_finite_inputs.Decode

end
-- ==== Proof.Bridge.lean ====
/-
  The bridge: under the precondition the kernel's program and the reference end in the same number.

  Both end in the loss plus the regulariser of their own similarity arrays (the same host lines, carried as one
  function), so it is enough that the two raw similarity arrays, the two normalised ones and the two per-sample totals
  agree. Entry (b, c) of each similarity array is the softmax-weighted mean of four logits — the same four inner
  products in both programs, real numbers because every input entry is real — in two arrangements that agree on real
  values (the kernel multiplies by the named reciprocal of γ, the reference divides by γ). For the normalised array the
  kernel multiplies each logit by the reciprocal of its row sum and the reference divides by the row sum: the same real
  quotient because no row sum is zero. The kernel's totals are sums over the 16 category tiles of the per-tile sums over
  512 columns; the reference's are sums over the 8192 categories: one sum, regrouped.
-/
import proofs.«409182_j25632364822733_3_alg».proof.Defs
import proofs.«409182_j25632364822733_3_alg».proof.Proof.KArrays
import proofs.«409182_j25632364822733_3_alg».proof.Proof.KTail
import proofs.«409182_j25632364822733_3_alg».proof.Proof.RefRead
import proofs.«409182_j25632364822733_3_alg».proof.Proof.MeanLaws
import proofs.«409182_j25632364822733_3_alg».proof.Proof.PreFacts
import proofs.«409182_j25632364822733_3_alg».proof.Proof.Gen.Pre_finite_inputs

set_option maxRecDepth 16384

noncomputable section

open scoped BigOperators

namespace Cert.Proof.Bridge

open Cert.KernelIdeal Cert.KernelIdeal.Gen Cert.KernelIdeal.Frame Cert.KernelIdeal.Arrays Cert.KernelIdeal.Tail Cert.KernelIdeal.Blocks
open Cert.SoftTriple
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The three arguments as launched on core `c`, at their literal types. -/
abbrev xA (c : Dev nD) : S2048x512.Idx → EReal := m ((c.tc : Thread nD τ).loc main_arg0)
abbrev wA (c : Dev nD) : S32768x512.Idx → EReal := m ((c.tc : Thread nD τ).loc main_arg1)
abbrev catA (c : Dev nD) : IVec S2048 32 := m ((c.tc : Thread nD τ).loc main_arg2)

/-- The reference's [8192, 4, 512] view and row sums of the sub-centre rows are the kernel program's. -/
theorem wArr_eq (c : Dev nD) : wArr m c = Cert.ReferenceIdeal.Read.val_main_v0 (F := Ideal) (wA m c) := rfl
theorem rsArr_eq (c : Dev nD) : rsArr m c = Cert.ReferenceIdeal.Read.val_main_v1 (F := Ideal) (wA m c) := rfl
/-- And the precondition's row sums are the same array. -/
theorem rowSums_eq (c : Dev nD) : Cert.Pre_finite_inputs.Decode.rowSums (wA m c) = rsArr m c := rfl

/-- The inner products over the arrays the region finds are the logits of the arguments. -/
theorem arrLogit_eq (c : Dev nD) (b : Fin 2048) (cc : Fin 8192) (k : Fin 4) :
    arrLogit m c b cc k = logit (xA m c) (wArr m c) b cc k := by
  unfold arrLogit logit
  refine Finset.sum_congr rfl fun d _ => ?_
  rw [show xsArr m c (ix2 b d) = xA m c (ix2 b d) from V_x m c (ix2 b d),
    show wsArr m c (ix2 cc (panelCol k d)) = wArr m c (ix3 cc k d) from V_w m c cc k d]

section UnderPre
variable (hpre : Cert.Pre_KernelIdeal m)
include hpre

/-- Under the precondition the [8192, 4, 512] view of the sub-centre rows has real entries. -/
theorem w3_real (c : Dev nD) : ∃ w3r : SW.Idx → ℝ, wArr m c = fun j => (w3r j : EReal) := by
  obtain ⟨wr, hw⟩ := Cert.Pre_finite_inputs.Decode.W_real _ _ _ (hpre c)
  refine ⟨fun j => wr (Shape.reshapeEquiv shapeCasts_S32768x512_S8192x4x512 j), ?_⟩
  funext j
  show (m ((c.tc : Thread nD τ).loc main_arg1) : S32768x512.Idx → EReal) (Shape.reshapeEquiv shapeCasts_S32768x512_S8192x4x512 j) = _
  exact congrFun hw _

/-- So every logit is a real number. -/
theorem logit_real (c : Dev nD) : ∃ L : Fin 2048 → Fin 8192 → Fin 4 → ℝ,
    ∀ b cc k, logit (xA m c) (wArr m c) b cc k = (L b cc k : EReal) := by
  obtain ⟨xr, hx⟩ := Cert.Pre_finite_inputs.Decode.x_real _ _ _ (hpre c)
  obtain ⟨w3r, hw⟩ := w3_real m hpre c
  refine ⟨fun b cc k => ∑ d : Fin 512, xr (ix2 b d) * w3r (ix3 cc k d), fun b cc k => ?_⟩
  rw [hw, show xA m c = fun i => (xr i : EReal) from hx]
  exact logit_coe xr w3r b cc k

/-- Every row sum is a nonzero real number. -/
theorem rs_real (c : Dev nD) : ∃ r : Fin 8192 → Fin 4 → ℝ, ∀ cc k, rsArr m c (ix2 cc k) = (r cc k : EReal) ∧ r cc k ≠ 0 := by
  obtain ⟨w3r, hw⟩ := w3_real m hpre c
  have hsum : ∀ cc k, rsArr m c (ix2 cc k) = ((∑ d : Fin 512, w3r (ix3 cc k d) : ℝ) : EReal) := by
    intro cc k
    rw [rsArr_eq, Cert.ReferenceIdeal.Read.val_main_v1_apply]
    rw [show Cert.ReferenceIdeal.Read.val_main_v0 (F := Ideal) (wA m c) = fun j => (w3r j : EReal) from (wArr_eq m c).symm.trans hw]
    refine Eq.trans ?_ (zero_add_sum_coe fun d : Fin 512 => w3r (ix3 cc k d))
    refine congrArg₂ (· + ·) rfl (Finset.sum_congr rfl fun d _ => ?_)
    exact congrArg (fun j => ((w3r j : ℝ) : EReal)) (funext fun a => Fin.ext (by match a with | ⟨0, _⟩ => rfl | ⟨1, _⟩ => rfl | ⟨2, _⟩ => rfl))
  refine ⟨fun cc k => ∑ d : Fin 512, w3r (ix3 cc k d), fun cc k => ⟨hsum cc k, fun h0 => ?_⟩⟩
  have hne := Cert.Pre_finite_inputs.Decode.rowSums_ne_zero _ _ _ (hpre c) (ix2 cc k)
  have h0' : (∑ d : Fin 512, w3r (ix3 cc k d)) = 0 := h0
  rw [rowSums_eq, hsum cc k, h0'] at hne
  exact hne EReal.coe_zero

/-- The two raw similarity arrays agree. -/
theorem raw_eq (c : Dev nD) : rawArr m c = Cert.ReferenceIdeal.Read.val_main_v17 (F := Ideal) (xA m c) (wA m c) := by
  obtain ⟨L, hL⟩ := logit_real m hpre c
  funext i
  obtain ⟨b, cc, rfl⟩ : ∃ (b : Fin 2048) (cc : Fin 8192), i = ix2 b cc := ⟨i 0, i 1, eq_ix2 i⟩
  rw [raw_final m c b cc, Cert.ReferenceIdeal.RefValue.raw_apply]
  rw [show (fun k => arrLogit m c b cc k) = fun k => (L b cc k : EReal) from funext fun k => (arrLogit_eq m c b cc k).trans (hL b cc k),
    show (fun k => logit (xA m c) (Cert.ReferenceIdeal.Read.val_main_v0 (F := Ideal) (wA m c)) b cc k) = fun k => (L b cc k : EReal) from
      funext fun k => hL b cc k]
  exact softMean_eq_refMean _

/-- The two normalised similarity arrays agree. -/
theorem norm_eq (c : Dev nD) : normArr m c = Cert.ReferenceIdeal.Read.val_main_v35 (F := Ideal) (xA m c) (wA m c) := by
  obtain ⟨L, hL⟩ := logit_real m hpre c
  obtain ⟨r, hr⟩ := rs_real m hpre c
  funext i
  obtain ⟨b, cc, rfl⟩ : ∃ (b : Fin 2048) (cc : Fin 8192), i = ix2 b cc := ⟨i 0, i 1, eq_ix2 i⟩
  rw [norm_final m c b cc, Cert.ReferenceIdeal.RefValue.norm_apply]
  rw [show (fun k => arrLogit m c b cc k * rcArr m c (ix2 k cc)) = fun k => ((L b cc k / r cc k : ℝ) : EReal) from funext fun k => by
        rw [arrLogit_eq, hL, show rcArr m c (ix2 k cc) = Ideal.div oneLit (rsArr m c (ix2 cc k)) from V_r m c k cc, (hr cc k).1]
        exact mul_recip_coe _ _ (hr cc k).2,
    show (fun k => Ideal.div (logit (xA m c) (Cert.ReferenceIdeal.Read.val_main_v0 (F := Ideal) (wA m c)) b cc k)
        (Cert.ReferenceIdeal.Read.val_main_v1 (F := Ideal) (wA m c) (ix2 cc k))) = fun k => ((L b cc k / r cc k : ℝ) : EReal) from funext fun k => by
        rw [show logit (xA m c) (Cert.ReferenceIdeal.Read.val_main_v0 (F := Ideal) (wA m c)) b cc k = (L b cc k : EReal) from hL b cc k,
          show Cert.ReferenceIdeal.Read.val_main_v1 (F := Ideal) (wA m c) (ix2 cc k) = (r cc k : EReal) from (hr cc k).1]
        exact div_coe_coe _ _ (hr cc k).2]
  exact softMean_eq_refMean _

/-- The two per-sample totals agree: the tiles' sums regrouped. -/
theorem tot_eq (c : Dev nD) : totOf (partArr m c) = Cert.ReferenceIdeal.Read.val_main_v48 (F := Ideal) (xA m c) (wA m c) := by
  funext i
  obtain ⟨b, rfl⟩ : ∃ b : Fin 2048, i = ix1 b := ⟨i 0, eq_ix1 i⟩
  rw [totOf_apply, Cert.ReferenceIdeal.RefValue.tot_apply, ← norm_eq m hpre c]
  refine congrArg (zeroLit + ·) ?_
  rw [← sum_tiles fun cc => normArr m c (ix2 b cc)]
  exact Finset.sum_congr rfl fun ct _ => part_final m c ct b

/-- THE BRIDGE: the kernel program's result buffer after its run holds the reference's result term of the same arguments. -/
theorem result_eq (c : Dev nD) :
    (Pipeline.afterTail₀ cfgs (dats m) 0 (V0 m) tailOps c main_v56 : S_.Idx → EReal)
      = Cert.ReferenceIdeal.Read.val_main_v83 (F := Ideal) (xA m c) (wA m c) (catA m c) := by
  rw [tail_result m c, Cert.ReferenceIdeal.RefValue.result_eq]
  rw [show ((dats m 0 c).arrAt 3 cfg0.N : S2048x8192.Idx → EReal) = _ from raw_eq m hpre c,
    show ((dats m 0 c).arrAt 4 cfg0.N : S2048x8192.Idx → EReal) = _ from norm_eq m hpre c,
    show totOf ((dats m 0 c).arrAt 5 cfg0.N : S16x2048x1.Idx → EReal) = _ from tot_eq m hpre c,
    wArr_eq, rsArr_eq]

end UnderPre

/-- The kernel program's run, with its result buffer and its arguments read off the frame run's post. -/
theorem run_result (ρ : Dev nD → PrngReg) :
    θ_run defs (onTc (τ := τ) (main (F := Ideal))) ⟨m, fun _ => 0, ρ⟩ (fun r => ∀ c : Dev nD,
      r.2.mem ((c.tc : Thread nD τ).loc main_v56) = Pipeline.afterTail₀ cfgs (dats m) 0 (V0 m) tailOps c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v56 (Pipeline.mem_restRefs_of main_v56 (by decide) (by decide)),
     ((h c).2 main_arg0 (Pipeline.mem_restRefs_of main_arg0 (by decide) (by decide))).trans (W_arg m (dats m) c _ (.inl rfl)),
     ((h c).2 main_arg1 (Pipeline.mem_restRefs_of main_arg1 (by decide) (by decide))).trans (W_arg m (dats m) c _ (.inr (.inl rfl))),
     ((h c).2 main_arg2 (Pipeline.mem_restRefs_of main_arg2 (by decide) (by decide))).trans (W_arg m (dats m) c _ (.inr (.inr rfl)))⟩)
    (run_main m ρ)

end Cert.Proof.Bridge

end
-- ==== Proof.lean ====
/-
  The certificate: the soft-triple kernel's program against its reference.

  Frames. The kernel's program, as printed and idealized, is host lines, one region on a 16 × 4 grid, and more host
  lines; its region's body is straight-line and stores each output buffer whole, so the program runs to its end and
  leaves its three arguments as launched (`FrameKernel`, `FrameKernelIdeal`). The reference is host lines only.
  Idealization. The kernel's multiplier ten is named the exact reciprocal of the binary32 number nearest one tenth,
  which is the number the reference divides by; the eight sites each state that.
  Equivalence. Under the precondition (every float input entry real, no sub-centre row summing to zero) both programs
  end in the same extended real (`Bridge`).
-/
import proofs.«409182_j25632364822733_3_alg».proof.Defs
import proofs.«409182_j25632364822733_3_alg».proof.Proof.Gen.Kernel
import proofs.«409182_j25632364822733_3_alg».proof.Proof.Gen.KernelIdeal
import proofs.«409182_j25632364822733_3_alg».proof.Proof.Gen.ReferenceIdeal
import proofs.«409182_j25632364822733_3_alg».proof.Proof.Gen.ReferenceIdeal.Run
import proofs.«409182_j25632364822733_3_alg».proof.Proof.Gen.ReferenceIdeal.Read
import proofs.«409182_j25632364822733_3_alg».proof.Proof.Gen.Pre_finite_inputs
import proofs.«409182_j25632364822733_3_alg».proof.Proof.FrameKernel
import proofs.«409182_j25632364822733_3_alg».proof.Proof.FrameKernelIdeal
import proofs.«409182_j25632364822733_3_alg».proof.Proof.Bridge
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- One site of the named multiplier: the table gives the name the reciprocal of γ, and the printed constant is that value on the extended reals. -/
theorem named_site : IdealRules.named_const.Statement Cert.KernelIdeal.κ "inv_gamma" .f32 0x41200000#32 ((134217728 / 13421773 : ℝ) : EReal) :=
  IdealRules.named_const.statement Cert.KernelIdeal.κ "inv_gamma" .f32 0x41200000#32 ((134217728 / 13421773 : ℝ) : EReal) rfl

/-- The eight sites (four scalings of the raw logits, four of the normalised ones). -/
theorem preserves : Cert.preserves_Kernel_KernelIdeal :=
  ⟨named_site, named_site, named_site, named_site, named_site, named_site, named_site, named_site⟩

/-- From memories agreeing on the arguments both programs run, keep the arguments, and end in one number: the kernel
    program's result buffer, which the bridge shows to be the reference's result term. -/
theorem algebraic : Cert.algebraic_KernelIdeal_ReferenceIdeal := by
  intro m ρ m' ρ' hpre hagree
  refine ⟨fun c => Pipeline.afterTail₀ Cert.KernelIdeal.cfgs (Cert.KernelIdeal.Frame.dats m) 0 (Cert.KernelIdeal.Frame.V0 m)
    Cert.KernelIdeal.Frame.tailOps c Cert.KernelIdeal.main_v56, Bridge.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq, (hagree c).1, (hagree c).2.1, (hagree c).2.2]
  exact (Bridge.result_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
